-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256 : Shape := ⟨2, ![4, 256]⟩
abbrev S4x256x14x3 : Shape := ⟨4, ![4, 256, 14, 3]⟩
abbrev S4x256x14 : Shape := ⟨3, ![4, 256, 14]⟩
abbrev S21x62 : Shape := ⟨2, ![21, 62]⟩
abbrev S14x63 : Shape := ⟨2, ![14, 63]⟩
abbrev S_ : Shape := ⟨0, ![]⟩

class Facts : Prop where
  bcast_S_S4x256x14x3 : S_.BroadcastsInDim S4x256x14x3 (![] : Fin 0 → Fin S4x256x14x3.rank)
  reducesTo_S4x256x14x3_S_d0_1_2_3 : S4x256x14x3.ReducesTo [0, 1, 2, 3] S_
  h_S_ : 0 < S_.numel
  bcast_S_S21x62 : S_.BroadcastsInDim S21x62 (![] : Fin 0 → Fin S21x62.rank)
  reducesTo_S21x62_S_d0_1 : S21x62.ReducesTo [0, 1] S_
  bcast_S_S14x63 : S_.BroadcastsInDim S14x63 (![] : Fin 0 → Fin S14x63.rank)
  reducesTo_S14x63_S_d0_1 : S14x63.ReducesTo [0, 1] S_
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_arg0 : IVec S4x256 32) (main_v13 : IVec S_ 1) (main_v15 : IVec S4x256 1) (main_c_5 : IVec S_ 32) : IVec S_ 1 :=
  let main_v16 : IVec S4x256 32 := broadcastInDim S4x256 ![] bcast_S_S4x256 main_c_5
  let main_v17 : IVec S4x256 1 := cmpi .slt main_arg0 main_v16
  let main_v18 : IVec S4x256 1 := andi main_v15 main_v17
  let main_c_6 : IVec S_ 1 := constantI S_ 1 1#1
  let main_v19 : IVec S_ 1 := (fun x v => Host.reduce IntOp.andi x v reducesTo_S4x256_S_d0_1 h_S_) main_v18 main_c_6
  let main_v20 : IVec S_ 1 := andi main_v13 main_v19
  main_v20

def fn {F : FTy → Type} [FloatOps F] (main_arg0 : IVec S4x256 32) (main_arg1 : FVec F S4x256x14x3 .f32) (main_arg2 : IVec S4x256x14 1) (main_arg3 : FVec F S21x62 .f32) (main_arg4 : FVec F S14x63 .f32) : IVec S_ 1 :=
  let main_v0 : FVec F S4x256x14x3 .f32 := Host.absf main_arg1
  let main_cst : FVec F S_ .f32 := constant S_ .f32 0x7F800000#32
  let main_v1 : FVec F S4x256x14x3 .f32 := broadcastInDim S4x256x14x3 ![] bcast_S_S4x256x14x3 main_cst
  let main_v2 : IVec S4x256x14x3 1 := cmpf .olt main_v0 main_v1
  let main_c : IVec S_ 1 := constantI S_ 1 1#1
  let main_v3 : IVec S_ 1 := (fun x v => Host.reduce IntOp.andi x v reducesTo_S4x256x14x3_S_d0_1_2_3 h_S_) main_v2 main_c
  let main_v4 : FVec F S21x62 .f32 := Host.absf main_arg3
  let main_cst_0 : FVec F S_ .f32 := constant S_ .f32 0x7F800000#32
  let main_v5 : FVec F S21x62 .f32 := broadcastInDim S21x62 ![] bcast_S_S21x62 main_cst_0
  let main_v6 : IVec S21x62 1 := cmpf .olt main_v4 main_v5
  let main_c_1 : IVec S_ 1 := constantI S_ 1 1#1
  let main_v7 : IVec S_ 1 := (fun x v => Host.reduce IntOp.andi x v reducesTo_S21x62_S_d0_1 h_S_) main_v6 main_c_1
  let main_v8 : IVec S_ 1 := andi main_v3 main_v7
  let main_v9 : FVec F S14x63 .f32 := Host.absf main_arg4
  let main_cst_2 : FVec F S_ .f32 := constant S_ .f32 0x7F800000#32
  let main_v10 : FVec F S14x63 .f32 := broadcastInDim S14x63 ![] bcast_S_S14x63 main_cst_2
  let main_v11 : IVec S14x63 1 := cmpf .olt main_v9 main_v10
  let main_c_3 : IVec S_ 1 := constantI S_ 1 1#1
  let main_v12 : IVec S_ 1 := (fun x v => Host.reduce IntOp.andi x v reducesTo_S14x63_S_d0_1 h_S_) main_v11 main_c_3
  let main_v13 : IVec S_ 1 := andi main_v8 main_v12
  let main_c_4 : IVec S_ 32 := constantI S_ 32 0#32
  let main_v14 : IVec S4x256 32 := broadcastInDim S4x256 ![] bcast_S_S4x256 main_c_4
  let main_v15 : IVec S4x256 1 := cmpi .sge main_arg0 main_v14
  let main_c_5 : IVec S_ 32 := constantI S_ 32 21#32
  fn_part1 (F := F) main_arg0 main_v13 main_v15 main_c_5
-- ==== Kernel.lean ====
abbrev S4x256 : Shape := ⟨2, ![4, 256]⟩
abbrev S4x256x14x3 : Shape := ⟨4, ![4, 256, 14, 3]⟩
abbrev S4x256x14 : Shape := ⟨3, ![4, 256, 14]⟩
abbrev S21x62 : Shape := ⟨2, ![21, 62]⟩
abbrev S14x63 : Shape := ⟨2, ![14, 63]⟩
abbrev S4x3584 : Shape := ⟨2, ![4, 3584]⟩
abbrev S14 : Shape := ⟨1, ![14]⟩
abbrev S1x14 : Shape := ⟨2, ![1, 14]⟩
abbrev S256x14 : Shape := ⟨2, ![256, 14]⟩
abbrev S3584 : Shape := ⟨1, ![3584]⟩
abbrev S4x1x3584 : Shape := ⟨3, ![4, 1, 3584]⟩
abbrev S1x3584 : Shape := ⟨2, ![1, 3584]⟩
abbrev S4x3584x3 : Shape := ⟨3, ![4, 3584, 3]⟩
abbrev S_ : Shape := ⟨0, ![]⟩
abbrev S21x63 : Shape := ⟨2, ![21, 63]⟩
abbrev S21x125 : Shape := ⟨2, ![21, 125]⟩
abbrev S14x62 : Shape := ⟨2, ![14, 62]⟩
abbrev S14x125 : Shape := ⟨2, ![14, 125]⟩
abbrev S35x125 : Shape := ⟨2, ![35, 125]⟩
abbrev S4x3584x128 : Shape := ⟨3, ![4, 3584, 128]⟩
abbrev S1x1x3584 : Shape := ⟨3, ![1, 1, 3584]⟩
abbrev S1x3584x3 : Shape := ⟨3, ![1, 3584, 3]⟩
abbrev S1x3584x128 : Shape := ⟨3, ![1, 3584, 128]⟩
abbrev S3584x35 : Shape := ⟨2, ![3584, 35]⟩
abbrev S3584x1 : Shape := ⟨2, ![3584, 1]⟩
abbrev S3584x125 : Shape := ⟨2, ![3584, 125]⟩
abbrev S3584x3 : Shape := ⟨2, ![3584, 3]⟩
abbrev S3584x128 : Shape := ⟨2, ![3584, 128]⟩
abbrev S4x3x3584 : Shape := ⟨3, ![4, 3, 3584]⟩
abbrev S4x3584x3584 : Shape := ⟨3, ![4, 3584, 3584]⟩
abbrev S1x3x896 : Shape := ⟨3, ![1, 3, 896]⟩
abbrev S1x3584x896 : Shape := ⟨3, ![1, 3584, 896]⟩
abbrev S3x896 : Shape := ⟨2, ![3, 896]⟩
abbrev S1x896 : Shape := ⟨2, ![1, 896]⟩
abbrev S1x256x3 : Shape := ⟨3, ![1, 256, 3]⟩
abbrev S256x3 : Shape := ⟨2, ![256, 3]⟩
abbrev S256x1 : Shape := ⟨2, ![256, 1]⟩
abbrev S256x896 : Shape := ⟨2, ![256, 896]⟩
abbrev S1x256x896 : Shape := ⟨3, ![1, 256, 896]⟩

abbrev nBuf : Space → Nat
  | .hbm => 29
  | .vmem => 14
  | .smem => 0
  | _ => 0

abbrev bufTy : (tb : Table) → Fin (tcTables nBuf tb) → BufTy
  | .hbm, ⟨0, _⟩ => ⟨S4x256, .i32⟩
  | .hbm, ⟨1, _⟩ => ⟨S4x256x14x3, .f32⟩
  | .hbm, ⟨2, _⟩ => ⟨S4x256x14, .i1⟩
  | .hbm, ⟨3, _⟩ => ⟨S21x62, .f32⟩
  | .hbm, ⟨4, _⟩ => ⟨S14x63, .f32⟩
  | .hbm, ⟨5, _⟩ => ⟨S4x256x14, .i32⟩
  | .hbm, ⟨6, _⟩ => ⟨S4x3584, .i32⟩
  | .hbm, ⟨7, _⟩ => ⟨S14, .i32⟩
  | .hbm, ⟨8, _⟩ => ⟨S1x14, .i32⟩
  | .hbm, ⟨9, _⟩ => ⟨S256x14, .i32⟩
  | .hbm, ⟨10, _⟩ => ⟨S3584, .i32⟩
  | .hbm, ⟨11, _⟩ => ⟨S4x1x3584, .i32⟩
  | .hbm, ⟨12, _⟩ => ⟨S1x3584, .i32⟩
  | .hbm, ⟨13, _⟩ => ⟨S4x3584x3, .f32⟩
  | .hbm, ⟨14, _⟩ => ⟨S4x3584, .i1⟩
  | .hbm, ⟨15, _⟩ => ⟨S_, .f32⟩
  | .hbm, ⟨16, _⟩ => ⟨S21x63, .f32⟩
  | .hbm, ⟨17, _⟩ => ⟨S21x125, .f32⟩
  | .hbm, ⟨18, _⟩ => ⟨S_, .f32⟩
  | .hbm, ⟨19, _⟩ => ⟨S14x62, .f32⟩
  | .hbm, ⟨20, _⟩ => ⟨S14x125, .f32⟩
  | .hbm, ⟨21, _⟩ => ⟨S35x125, .f32⟩
  | .hbm, ⟨22, _⟩ => ⟨S4x3584x128, .f32⟩
  | .hbm, ⟨23, _⟩ => ⟨S4x3x3584, .f32⟩
  | .hbm, ⟨24, _⟩ => ⟨S4x3584x3584, .i32⟩
  | .hbm, ⟨25, _⟩ => ⟨S_, .i32⟩
  | .hbm, ⟨26, _⟩ => ⟨S4x3584x3584, .i32⟩
  | .hbm, ⟨27, _⟩ => ⟨S4x3584x3584, .i1⟩
  | .hbm, ⟨28, _⟩ => ⟨S4x3584x3584, .i1⟩
  | .local _ .vmem, ⟨0, _⟩ => ⟨S1x1x3584, .i32⟩
  | .local _ .vmem, ⟨1, _⟩ => ⟨S1x1x3584, .i32⟩
  | .local _ .vmem, ⟨2, _⟩ => ⟨S1x3584, .i32⟩
  | .local _ .vmem, ⟨3, _⟩ => ⟨S1x3584x3, .f32⟩
  | .local _ .vmem, ⟨4, _⟩ => ⟨S1x3584x3, .f32⟩
  | .local _ .vmem, ⟨5, _⟩ => ⟨S35x125, .f32⟩
  | .local _ .vmem, ⟨6, _⟩ => ⟨S1x3584x128, .f32⟩
  | .local _ .vmem, ⟨7, _⟩ => ⟨S1x3584x128, .f32⟩
  | .local _ .vmem, ⟨8, _⟩ => ⟨S1x3584x3, .f32⟩
  | .local _ .vmem, ⟨9, _⟩ => ⟨S1x3584x3, .f32⟩
  | .local _ .vmem, ⟨10, _⟩ => ⟨S1x3x896, .f32⟩
  | .local _ .vmem, ⟨11, _⟩ => ⟨S1x3x896, .f32⟩
  | .local _ .vmem, ⟨12, _⟩ => ⟨S1x3584x896, .i32⟩
  | .local _ .vmem, ⟨13, _⟩ => ⟨S1x3584x896, .i32⟩
  | _, _ => ⟨S4x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x3584 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3584x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S35x125 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3584x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

def k1_mult1 : BitVec 32 :=
  let c0_i32 : BitVec 32 := 0#32
  let c256_i32 : BitVec 32 := 256#32
  let v5 : BitVec 32 := Scalar.muli c0_i32 c256_i32
  v5
def k1_off1 (c0_i32 : BitVec 32) : Fin 3 → Nat :=
  let c0_2 : Index := 0#32
  let c256_i32 : BitVec 32 := 256#32
  let v5 : BitVec 32 := Scalar.muli c0_i32 c256_i32
  let v6 : BitVec 32 := v5
  let v7 : Index := Scalar.indexCast v6
  let c0_3 : Index := 0#32
  ![0, v7.toNat, 0]
def k1_off2 (c0_i32 : BitVec 32) : Fin 3 → Nat :=
  let c0_4 : Index := 0#32
  let c256_i32 : BitVec 32 := 256#32
  let v5 : BitVec 32 := Scalar.muli c0_i32 c256_i32
  let v6 : BitVec 32 := v5
  let v29 : Index := Scalar.indexCast v6
  let c0_5 : Index := 0#32
  ![0, v29.toNat, 0]
def k1_mult2 : BitVec 32 :=
  let c1_i32 : BitVec 32 := 1#32
  let c256_i32_7 : BitVec 32 := 256#32
  let v35 : BitVec 32 := Scalar.muli c1_i32 c256_i32_7
  v35
def k1_mult3 : BitVec 32 :=
  let c2_i32 : BitVec 32 := 2#32
  let c256_i32_14 : BitVec 32 := 256#32
  let v65 : BitVec 32 := Scalar.muli c2_i32 c256_i32_14
  v65
def k1_mult4 : BitVec 32 :=
  let c3_i32 : BitVec 32 := 3#32
  let c256_i32_21 : BitVec 32 := 256#32
  let v95 : BitVec 32 := Scalar.muli c3_i32 c256_i32_21
  v95
def k1_mult5 : BitVec 32 :=
  let c4_i32 : BitVec 32 := 4#32
  let c256_i32_28 : BitVec 32 := 256#32
  let v125 : BitVec 32 := Scalar.muli c4_i32 c256_i32_28
  v125
def k1_mult6 : BitVec 32 :=
  let c5_i32 : BitVec 32 := 5#32
  let c256_i32_35 : BitVec 32 := 256#32
  let v155 : BitVec 32 := Scalar.muli c5_i32 c256_i32_35
  v155
def k1_mult7 : BitVec 32 :=
  let c6_i32 : BitVec 32 := 6#32
  let c256_i32_42 : BitVec 32 := 256#32
  let v185 : BitVec 32 := Scalar.muli c6_i32 c256_i32_42
  v185
def k1_mult8 : BitVec 32 :=
  let c7_i32 : BitVec 32 := 7#32
  let c256_i32_49 : BitVec 32 := 256#32
  let v215 : BitVec 32 := Scalar.muli c7_i32 c256_i32_49
  v215
def k1_mult9 : BitVec 32 :=
  let c8_i32 : BitVec 32 := 8#32
  let c256_i32_56 : BitVec 32 := 256#32
  let v245 : BitVec 32 := Scalar.muli c8_i32 c256_i32_56
  v245
def k1_mult10 : BitVec 32 :=
  let c9_i32 : BitVec 32 := 9#32
  let c256_i32_63 : BitVec 32 := 256#32
  let v275 : BitVec 32 := Scalar.muli c9_i32 c256_i32_63
  v275
def k1_mult11 : BitVec 32 :=
  let c10_i32 : BitVec 32 := 10#32
  let c256_i32_70 : BitVec 32 := 256#32
  let v305 : BitVec 32 := Scalar.muli c10_i32 c256_i32_70
  v305
def k1_mult12 : BitVec 32 :=
  let c11_i32 : BitVec 32 := 11#32
  let c256_i32_77 : BitVec 32 := 256#32
  let v335 : BitVec 32 := Scalar.muli c11_i32 c256_i32_77
  v335
def k1_mult13 : BitVec 32 :=
  let c12_i32 : BitVec 32 := 12#32
  let c256_i32_84 : BitVec 32 := 256#32
  let v365 : BitVec 32 := Scalar.muli c12_i32 c256_i32_84
  v365
def k1_mult14 : BitVec 32 :=
  let c13_i32 : BitVec 32 := 13#32
  let c256_i32_91 : BitVec 32 := 256#32
  let v395 : BitVec 32 := Scalar.muli c13_i32 c256_i32_91
  v395
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x3584x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x3x896 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3584x896 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S4x256_S4x256x14_0_1 : S4x256.BroadcastsInDim S4x256x14 (![0, 1] : Fin 2 → Fin S4x256x14.rank)
  shapeCasts_S4x256x14_S4x3584 : S4x256x14.ShapeCasts S4x3584
  shapeCasts_S14_S1x14 : S14.ShapeCasts S1x14
  bcast_S1x14_S256x14_0_1 : S1x14.BroadcastsInDim S256x14 (![0, 1] : Fin 2 → Fin S256x14.rank)
  shapeCasts_S256x14_S3584 : S256x14.ShapeCasts S3584
  shapeCasts_S4x3584_S4x1x3584 : S4x3584.ShapeCasts S4x1x3584
  shapeCasts_S3584_S1x3584 : S3584.ShapeCasts S1x3584
  shapeCasts_S4x256x14x3_S4x3584x3 : S4x256x14x3.ShapeCasts S4x3584x3
  bcast_S_S21x63 : S_.BroadcastsInDim S21x63 (![] : Fin 0 → Fin S21x63.rank)
  concatenates_S21x62_S21x63_S21x125_d1 : Shape.Concatenates [S21x62, S21x63] S21x125 1
  bcast_S_S14x62 : S_.BroadcastsInDim S14x62 (![] : Fin 0 → Fin S14x62.rank)
  concatenates_S14x62_S14x63_S14x125_d1 : Shape.Concatenates [S14x62, S14x63] S14x125 1
  concatenates_S21x125_S14x125_S35x125_d0 : Shape.Concatenates [S21x125, S14x125] S35x125 0
  inb_S1x1x3584_S1x1x3584_0_0_0 : ∀ a, (![0, 0, 0] : Fin 3 → Nat) a + S1x1x3584.size a ≤ S1x1x3584.size a
  h_S1x1x3584 : 0 < S1x1x3584.numel
  shapeCasts_S1x1x3584_S3584 : S1x1x3584.ShapeCasts S3584
  inb_S1x3584_S1x3584_0_0 : ∀ a, (![0, 0] : Fin 2 → Nat) a + S1x3584.size a ≤ S1x3584.size a
  h_S1x3584 : 0 < S1x3584.numel
  shapeCasts_S1x3584_S3584 : S1x3584.ShapeCasts S3584
  iota_S3584x35_d1_w32 : S3584x35.Iotas .tc 32 [1]
  shapeCasts_S3584_S3584x1 : S3584.ShapeCasts S3584x1
  broadcasts_S3584x1_S3584x35 : S3584x1.Broadcasts S3584x35
  natLt_1_32 : 1 < 32
  inb_S35x125_S35x125_0_0 : ∀ a, (![0, 0] : Fin 2 → Nat) a + S35x125.size a ≤ S35x125.size a
  h_S35x125 : 0 < S35x125.numel
  shapeCasts_S35x125_S35x125 : S35x125.ShapeCasts S35x125
  inb_S1x3584x3_S1x3584x3_0_0_0 : ∀ a, (![0, 0, 0] : Fin 3 → Nat) a + S1x3584x3.size a ≤ S1x3584x3.size a
  h_S1x3584x3 : 0 < S1x3584x3.numel
  shapeCasts_S1x3584x3_S3584x3 : S1x3584x3.ShapeCasts S3584x3
  concatenates_S3584x125_S3584x3_S3584x128_d1 : Shape.Concatenates [S3584x125, S3584x3] S3584x128 1
  inb_S1x3584x128_S1x3584x128_0_0_0 : ∀ a, (![0, 0, 0] : Fin 3 → Nat) a + S1x3584x128.size a ≤ S1x3584x128.size a
  h_S1x3584x128 : 0 < S1x3584x128.numel
  shapeCasts_S1x3584x128_S3584x128 : S1x3584x128.ShapeCasts S3584x128
  shapeCasts_S3584x128_S1x3584x128 : S3584x128.ShapeCasts S1x3584x128
  transposes_S4x3584x3_S4x3x3584_0_2_1 : S4x3584x3.Transposes [0, 2, 1] S4x3x3584
  inb_S1x3x896_S1x3x896_0_0_0 : ∀ a, (![0, 0, 0] : Fin 3 → Nat) a + S1x3x896.size a ≤ S1x3x896.size a
  h_S1x3x896 : 0 < S1x3x896.numel
  shapeCasts_S1x3x896_S3x896 : S1x3x896.ShapeCasts S3x896
  slices_S3x896_o0_0_S1x896 : S3x896.Slices ![0, 0] S1x896
  slices_S3x896_o1_0_S1x896 : S3x896.Slices ![1, 0] S1x896
  slices_S3x896_o2_0_S1x896 : S3x896.Slices ![2, 0] S1x896
  h_S1x256x3 : 0 < S1x256x3.numel
  shapeCasts_S1x256x3_S256x3 : S1x256x3.ShapeCasts S256x3
  slices_S256x3_o0_0_S256x1 : S256x3.Slices ![0, 0] S256x1
  slices_S256x3_o0_1_S256x1 : S256x3.Slices ![0, 1] S256x1
  slices_S256x3_o0_2_S256x1 : S256x3.Slices ![0, 2] S256x1
  broadcasts_S256x1_S256x896 : S256x1.Broadcasts S256x896
  broadcasts_S1x896_S256x896 : S1x896.Broadcasts S256x896
  h_S1x256x896 : 0 < S1x256x896.numel
  shapeCasts_S1x256x896_S256x896 : S1x256x896.ShapeCasts S256x896
  shapeCasts_S256x896_S1x256x896 : S256x896.ShapeCasts S1x256x896
  bcast_S_S4x3584x3584 : S_.BroadcastsInDim S4x3584x3584 (![] : Fin 0 → Fin S4x3584x3584.rank)
  dot_S3584x35_S35x125_S3584x125_1_0_0_1_n_n_wf : DotDims.WF S3584x35 S35x125 S3584x125 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x3584.size a ≤ S4x1x3584.size a
  hwx0_0 : ∀ i : grid0.Coords, EltTy.bits .i32 = 32 ∨ (Rect.block (s := S4x1x3584) S1x1x3584.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3584.size a ≤ S1x3584.size a
  hwx0_1 : ∀ i : grid0.Coords, EltTy.bits .i32 = 32 ∨ (Rect.block (s := S1x3584) S1x3584.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3584x3.size a ≤ S4x3584x3.size a
  hwx0_2 : ∀ i : grid0.Coords, EltTy.bits .f32 = 32 ∨ (Rect.block (s := S4x3584x3) S1x3584x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S35x125.size a ≤ S35x125.size a
  hwx0_3 : ∀ i : grid0.Coords, EltTy.bits .f32 = 32 ∨ (Rect.block (s := S35x125) S35x125.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3584x128.size a ≤ S4x3584x128.size a
  hwx0_4 : ∀ i : grid0.Coords, EltTy.bits .f32 = 32 ∨ (Rect.block (s := S4x3584x128) S1x3584x128.size (cc0_transform_4 i) (hinb0_4 i)).WholeWords (EltTy.packing .f32)
  hrank1 : 0 < grid1.rank
  k1_mult1_dvd : 256 ∣ k1_mult1.toNat
  k1_off1_inb : ∀ (r : Fin 14), ∀ a, (k1_off1 (BitVec.ofNat 32 r.val)) a + S1x256x3.size a ≤ S1x3584x3.size a
  k1_off2_inb : ∀ (r : Fin 14), ∀ a, (k1_off2 (BitVec.ofNat 32 r.val)) a + S1x256x896.size a ≤ S1x3584x896.size a
  k1_mult2_dvd : 256 ∣ k1_mult2.toNat
  k1_mult3_dvd : 256 ∣ k1_mult3.toNat
  k1_mult4_dvd : 256 ∣ k1_mult4.toNat
  k1_mult5_dvd : 256 ∣ k1_mult5.toNat
  k1_mult6_dvd : 256 ∣ k1_mult6.toNat
  k1_mult7_dvd : 256 ∣ k1_mult7.toNat
  k1_mult8_dvd : 256 ∣ k1_mult8.toNat
  k1_mult9_dvd : 256 ∣ k1_mult9.toNat
  k1_mult10_dvd : 256 ∣ k1_mult10.toNat
  k1_mult11_dvd : 256 ∣ k1_mult11.toNat
  k1_mult12_dvd : 256 ∣ k1_mult12.toNat
  k1_mult13_dvd : 256 ∣ k1_mult13.toNat
  k1_mult14_dvd : 256 ∣ k1_mult14.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3584x3.size a ≤ S4x3584x3.size a
  hwx1_0 : ∀ i : grid1.Coords, EltTy.bits .f32 = 32 ∨ (Rect.block (s := S4x3584x3) S1x3584x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x896.size a ≤ S4x3x3584.size a
  hwx1_1 : ∀ i : grid1.Coords, EltTy.bits .f32 = 32 ∨ (Rect.block (s := S4x3x3584) S1x3x896.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3584x896.size a ≤ S4x3584x3584.size a
  hwx1_2 : ∀ i : grid1.Coords, EltTy.bits .i32 = 32 ∨ (Rect.block (s := S4x3584x3584) S1x3584x896.size (cc1_transform_2 i) (hinb1_2 i)).WholeWords (EltTy.packing .i32)

variable [Facts₀]

def dot_S3584x35_S35x125_S3584x125_1_0_0_1_n_n : DotDims S3584x35 S35x125 S3584x125 where
  lhsContracting := [1]
  rhsContracting := [0]
  lhsNonContracting := [0]
  rhsNonContracting := [1]
  lhsBatch := []
  rhsBatch := []
  wf := dot_S3584x35_S35x125_S3584x125_1_0_0_1_n_n_wf

abbrev win0_0 : Pipeline.Window sig grid0 :=
  Pipeline.Window.ofSpec (Memref.whole main_v6) S1x1x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x3584.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x3584x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S35x125.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x3584x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S1x3584x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x3x896.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x3584x896.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x256 : Shape := ⟨2, ![4, 256]⟩
abbrev S4x256x14x3 : Shape := ⟨4, ![4, 256, 14, 3]⟩
abbrev S4x256x14 : Shape := ⟨3, ![4, 256, 14]⟩
abbrev S21x62 : Shape := ⟨2, ![21, 62]⟩
abbrev S14x63 : Shape := ⟨2, ![14, 63]⟩
abbrev S4x3584 : Shape := ⟨2, ![4, 3584]⟩
abbrev S14 : Shape := ⟨1, ![14]⟩
abbrev S1x14 : Shape := ⟨2, ![1, 14]⟩
abbrev S256x14 : Shape := ⟨2, ![256, 14]⟩
abbrev S3584 : Shape := ⟨1, ![3584]⟩
abbrev S_ : Shape := ⟨0, ![]⟩
abbrev S4x3584x1 : Shape := ⟨3, ![4, 3584, 1]⟩
abbrev S4x3584x62 : Shape := ⟨3, ![4, 3584, 62]⟩
abbrev S3584x1 : Shape := ⟨2, ![3584, 1]⟩
abbrev S3584x63 : Shape := ⟨2, ![3584, 63]⟩
abbrev S4x3584x63 : Shape := ⟨3, ![4, 3584, 63]⟩
abbrev S4x3584x3 : Shape := ⟨3, ![4, 3584, 3]⟩
abbrev S4x3584x1x3 : Shape := ⟨4, ![4, 3584, 1, 3]⟩
abbrev S4x1x3584x3 : Shape := ⟨4, ![4, 1, 3584, 3]⟩
abbrev S4x3584x3584x3 : Shape := ⟨4, ![4, 3584, 3584, 3]⟩
abbrev S4x3584x3584 : Shape := ⟨3, ![4, 3584, 3584]⟩
abbrev S4x3584x128 : Shape := ⟨3, ![4, 3584, 128]⟩

abbrev nBuf : Space → Nat
  | .hbm => 44
  | .vmem => 0
  | .smem => 0
  | _ => 0

abbrev bufTy : (tb : Table) → Fin (tcTables nBuf tb) → BufTy
  | .hbm, ⟨0, _⟩ => ⟨S4x256, .i32⟩
  | .hbm, ⟨1, _⟩ => ⟨S4x256x14x3, .f32⟩
  | .hbm, ⟨2, _⟩ => ⟨S4x256x14, .i1⟩
  | .hbm, ⟨3, _⟩ => ⟨S21x62, .f32⟩
  | .hbm, ⟨4, _⟩ => ⟨S14x63, .f32⟩
  | .hbm, ⟨5, _⟩ => ⟨S4x256x14, .i32⟩
  | .hbm, ⟨6, _⟩ => ⟨S4x3584, .i32⟩
  | .hbm, ⟨7, _⟩ => ⟨S14, .i32⟩
  | .hbm, ⟨8, _⟩ => ⟨S1x14, .i32⟩
  | .hbm, ⟨9, _⟩ => ⟨S256x14, .i32⟩
  | .hbm, ⟨10, _⟩ => ⟨S3584, .i32⟩
  | .hbm, ⟨11, _⟩ => ⟨S_, .i32⟩
  | .hbm, ⟨12, _⟩ => ⟨S4x3584, .i32⟩
  | .hbm, ⟨13, _⟩ => ⟨S4x3584, .i1⟩
  | .hbm, ⟨14, _⟩ => ⟨S_, .i32⟩
  | .hbm, ⟨15, _⟩ => ⟨S4x3584, .i32⟩
  | .hbm, ⟨16, _⟩ => ⟨S4x3584, .i32⟩
  | .hbm, ⟨17, _⟩ => ⟨S4x3584, .i32⟩
  | .hbm, ⟨18, _⟩ => ⟨S4x3584x1, .i32⟩
  | .hbm, ⟨19, _⟩ => ⟨S4x3584x62, .f32⟩
  | .hbm, ⟨20, _⟩ => ⟨S_, .i32⟩
  | .hbm, ⟨21, _⟩ => ⟨S3584, .i32⟩
  | .hbm, ⟨22, _⟩ => ⟨S3584, .i1⟩
  | .hbm, ⟨23, _⟩ => ⟨S_, .i32⟩
  | .hbm, ⟨24, _⟩ => ⟨S3584, .i32⟩
  | .hbm, ⟨25, _⟩ => ⟨S3584, .i32⟩
  | .hbm, ⟨26, _⟩ => ⟨S3584, .i32⟩
  | .hbm, ⟨27, _⟩ => ⟨S3584x1, .i32⟩
  | .hbm, ⟨28, _⟩ => ⟨S3584x63, .f32⟩
  | .hbm, ⟨29, _⟩ => ⟨S4x3584x63, .f32⟩
  | .hbm, ⟨30, _⟩ => ⟨S4x3584x3, .f32⟩
  | .hbm, ⟨31, _⟩ => ⟨S4x3584x1x3, .f32⟩
  | .hbm, ⟨32, _⟩ => ⟨S4x1x3584x3, .f32⟩
  | .hbm, ⟨33, _⟩ => ⟨S4x3584x3584x3, .f32⟩
  | .hbm, ⟨34, _⟩ => ⟨S4x3584x3584x3, .f32⟩
  | .hbm, ⟨35, _⟩ => ⟨S4x3584x3584x3, .f32⟩
  | .hbm, ⟨36, _⟩ => ⟨S4x3584x3584x3, .f32⟩
  | .hbm, ⟨37, _⟩ => ⟨S_, .f32⟩
  | .hbm, ⟨38, _⟩ => ⟨S4x3584x3584, .f32⟩
  | .hbm, ⟨39, _⟩ => ⟨S4x3584x128, .f32⟩
  | .hbm, ⟨40, _⟩ => ⟨S4x3584, .i1⟩
  | .hbm, ⟨41, _⟩ => ⟨S_, .f32⟩
  | .hbm, ⟨42, _⟩ => ⟨S4x3584x3584, .f32⟩
  | .hbm, ⟨43, _⟩ => ⟨S4x3584x3584, .i1⟩
  | _, _ => ⟨S4x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  bcast_S4x256_S4x256x14_0_1 : S4x256.BroadcastsInDim S4x256x14 (![0, 1] : Fin 2 → Fin S4x256x14.rank)
  shapeCasts_S4x256x14_S4x3584 : S4x256x14.ShapeCasts S4x3584
  shapeCasts_S14_S1x14 : S14.ShapeCasts S1x14
  bcast_S1x14_S256x14_0_1 : S1x14.BroadcastsInDim S256x14 (![0, 1] : Fin 2 → Fin S256x14.rank)
  shapeCasts_S256x14_S3584 : S256x14.ShapeCasts S3584
  bcast_S_S4x3584 : S_.BroadcastsInDim S4x3584 (![] : Fin 0 → Fin S4x3584.rank)
  bcast_S4x3584_S4x3584x1_0_1 : S4x3584.BroadcastsInDim S4x3584x1 (![0, 1] : Fin 2 → Fin S4x3584x1.rank)
  bcast_S_S3584 : S_.BroadcastsInDim S3584 (![] : Fin 0 → Fin S3584.rank)
  bcast_S3584_S3584x1_0 : S3584.BroadcastsInDim S3584x1 (![0] : Fin 1 → Fin S3584x1.rank)
  bcast_S3584x63_S4x3584x63_1_2 : S3584x63.BroadcastsInDim S4x3584x63 (![1, 2] : Fin 2 → Fin S4x3584x63.rank)
  shapeCasts_S4x256x14x3_S4x3584x3 : S4x256x14x3.ShapeCasts S4x3584x3
  bcast_S4x3584x3_S4x3584x1x3_0_1_3 : S4x3584x3.BroadcastsInDim S4x3584x1x3 (![0, 1, 3] : Fin 3 → Fin S4x3584x1x3.rank)
  bcast_S4x3584x3_S4x1x3584x3_0_2_3 : S4x3584x3.BroadcastsInDim S4x1x3584x3 (![0, 2, 3] : Fin 3 → Fin S4x1x3584x3.rank)
  bcast_S4x3584x1x3_S4x3584x3584x3_0_1_2_3 : S4x3584x1x3.BroadcastsInDim S4x3584x3584x3 (![0, 1, 2, 3] : Fin 4 → Fin S4x3584x3584x3.rank)
  bcast_S4x1x3584x3_S4x3584x3584x3_0_1_2_3 : S4x1x3584x3.BroadcastsInDim S4x3584x3584x3 (![0, 1, 2, 3] : Fin 4 → Fin S4x3584x3584x3.rank)
  reducesTo_S4x3584x3584x3_S4x3584x3584_d3 : S4x3584x3584x3.ReducesTo [3] S4x3584x3584
  h_S_ : 0 < S_.numel
  concatenates_S4x3584x62_S4x3584x63_S4x3584x3_S4x3584x128_d2 : Shape.Concatenates [S4x3584x62, S4x3584x63, S4x3584x3] S4x3584x128 2
  bcast_S_S4x3584x3584 : S_.BroadcastsInDim S4x3584x3584 (![] : Fin 0 → Fin S4x3584x3584.rank)
  gather_S21x62_S4x3584x1_S4x3584x62_2_0_n_n_0_2_162_wf : GatherDims.WF S21x62 S4x3584x1 S4x3584x62 [2] [0] [] [0] [] 2 ![1, 62]
  gather_S14x63_S3584x1_S3584x63_1_0_n_n_0_1_163_wf : GatherDims.WF S14x63 S3584x1 S3584x63 [1] [0] [] [0] [] 1 ![1, 63]

variable [Facts₀]

def gather_S21x62_S4x3584x1_S4x3584x62_2_0_n_n_0_2_162 : GatherDims S21x62 S4x3584x1 S4x3584x62 where
  offsetDims := [2]
  collapsedSliceDims := [0]
  operandBatchingDims := []
  startIndicesBatchingDims := []
  startIndexMap := [0]
  indexVectorDim := 2
  sliceSizes := ![1, 62]
  wf := gather_S21x62_S4x3584x1_S4x3584x62_2_0_n_n_0_2_162_wf
def gather_S14x63_S3584x1_S3584x63_1_0_n_n_0_1_163 : GatherDims S14x63 S3584x1 S3584x63 where
  offsetDims := [1]
  collapsedSliceDims := [0]
  operandBatchingDims := []
  startIndicesBatchingDims := []
  startIndexMap := [0]
  indexVectorDim := 1
  sliceSizes := ![1, 63]
  wf := gather_S14x63_S3584x1_S3584x63_1_0_n_n_0_1_163_wf

class Facts : Prop extends Facts₀ where

variable [Facts]
-- ==== Proof.Spec.lean ====
/-
  What the atom encoder computes, as functions of its argument arrays over the extended reals.

  Inputs: residue types `aa : [4, 256]` (integers), atom coordinates `co : [4, 3584, 3]` (the positions
  `[4, 256, 14, 3]` with residue and atom axes merged: atom `m` of batch `n` is atom `m % 14` of residue `m / 14`),
  a residue-type table `res : [21, 62]` and an atom-type table `atom : [14, 63]`.

  * The features `[4, 3584, 128]`: columns `0 … 61` are the residue-type row of the atom's residue, columns
    `62 … 124` the atom-type row of the atom's position in its residue, columns `125 … 127` its coordinates.
  * The edge mask `[4, 3584, 3584]`: atoms `i` and `j` of one batch are joined when their squared distance
    `(x_i − x_j)² + (y_i − y_j)² + (z_i − z_j)²` is below `100`.
-/
import Idealize.ShloMosaic.PureOps.Ideal
import Idealize.ShloMosaic.Lib.ValueIdx

noncomputable section

namespace Cert.AtomEnc

open Idealize.ShloMosaic Idealize.ShloMosaic.ValueIdx

abbrev SAa : Shape := ⟨2, ![4, 256]⟩
abbrev SCo : Shape := ⟨3, ![4, 3584, 3]⟩
abbrev SRes : Shape := ⟨2, ![21, 62]⟩
abbrev SAtom : Shape := ⟨2, ![14, 63]⟩
abbrev SFeat : Shape := ⟨3, ![4, 3584, 128]⟩
abbrev SEdge : Shape := ⟨3, ![4, 3584, 3584]⟩

/-- The squared distance of atoms `i` and `j` of batch `n`, summed `(x² + y²) + z²`. -/
def dist2 (co : SCo.Idx → EReal) (n : Fin 4) (i j : Fin 3584) : EReal :=
  (co (ix3 n i (0 : Fin 3)) - co (ix3 n j (0 : Fin 3))) * (co (ix3 n i (0 : Fin 3)) - co (ix3 n j (0 : Fin 3)))
    + (co (ix3 n i (1 : Fin 3)) - co (ix3 n j (1 : Fin 3))) * (co (ix3 n i (1 : Fin 3)) - co (ix3 n j (1 : Fin 3)))
    + (co (ix3 n i (2 : Fin 3)) - co (ix3 n j (2 : Fin 3))) * (co (ix3 n i (2 : Fin 3)) - co (ix3 n j (2 : Fin 3)))

/-- Atoms `i` and `j` of batch `n` are joined: their squared distance is below `100` (the bit of the comparison). -/
def edgeAt (co : SCo.Idx → EReal) (n : Fin 4) (i j : Fin 3584) : BitVec 1 :=
  Ideal.cmp .olt (dist2 co n i j) (Ideal.ofBits .f32 0x42C80000#32)

/-- The same squared distance read off one block of rows `q : [1, 3584, 3]` (atom, coordinate) and one block of
    columns `k : [1, 3, 896]` (coordinate, atom). -/
def blkDist2 (q : (⟨3, ![1, 3584, 3]⟩ : Shape).Idx → EReal) (k : (⟨3, ![1, 3, 896]⟩ : Shape).Idx → EReal)
    (r : Fin 3584) (j : Fin 896) : EReal :=
  (q (ix3 (0 : Fin 1) r (0 : Fin 3)) - k (ix3 (0 : Fin 1) (0 : Fin 3) j)) * (q (ix3 (0 : Fin 1) r (0 : Fin 3)) - k (ix3 (0 : Fin 1) (0 : Fin 3) j))
    + (q (ix3 (0 : Fin 1) r (1 : Fin 3)) - k (ix3 (0 : Fin 1) (1 : Fin 3) j)) * (q (ix3 (0 : Fin 1) r (1 : Fin 3)) - k (ix3 (0 : Fin 1) (1 : Fin 3) j))
    + (q (ix3 (0 : Fin 1) r (2 : Fin 3)) - k (ix3 (0 : Fin 1) (2 : Fin 3) j)) * (q (ix3 (0 : Fin 1) r (2 : Fin 3)) - k (ix3 (0 : Fin 1) (2 : Fin 3) j))

/-- The edge mask as one array. -/
def edgeSpec (co : SCo.Idx → EReal) : SEdge.Idx → BitVec 1 := fun y => edgeAt co (y 0) (y 1) (y 2)

/-- The table row a residue type names: the type itself when it is below `21`. -/
def resRow (a : BitVec 32) : Fin 21 := ⟨min a.toNat 20, by omega⟩

/-- Feature `c` of atom `m` of batch `n`. -/
def featAt (aa : SAa.Idx → BitVec 32) (co : SCo.Idx → EReal) (res : SRes.Idx → EReal) (atom : SAtom.Idx → EReal)
    (n : Fin 4) (m : Fin 3584) (c : Fin 128) : EReal :=
  if h : c.val < 62 then res (ix2 (resRow (aa (ix2 n (⟨m.val / 14, by omega⟩ : Fin 256)))) (⟨c.val, h⟩ : Fin 62))
  else if h2 : c.val < 125 then atom (ix2 (⟨m.val % 14, by omega⟩ : Fin 14) (⟨c.val - 62, by omega⟩ : Fin 63))
  else co (ix3 n m (⟨c.val - 125, by omega⟩ : Fin 3))

/-- The features as one array. -/
def featSpec (aa : SAa.Idx → BitVec 32) (co : SCo.Idx → EReal) (res : SRes.Idx → EReal) (atom : SAtom.Idx → EReal) :
    SFeat.Idx → EReal := fun y => featAt aa co res atom (y 0) (y 1) (y 2)

end Cert.AtomEnc

end
-- ==== Proof.Stretches.lean ====
/-
  The host operations around the two kernels, read back.

  Before the feature kernel the program builds, from its arguments: the residue id of every atom (`aa` repeated
  14 times along the residue axis, as a `[4, 1, 3584]` array), the atom id of every atom (`0 … 13` tiled 256
  times, as `[1, 3584]`), the coordinates `[4, 3584, 3]` (the positions with residue and atom axes merged) and
  the combined table `[35, 125]`: the residue table beside a zero block on top of a zero block beside the atom
  table. Between the kernels it transposes the coordinates to `[4, 3, 3584]`. After the edge kernel it turns the
  kernel's 32-bit words into bits: the word is not zero. Each result array is then read through these stretches back to
  what the kernels' write-backs leave.
-/
import proofs.«430467_j57887569215661_3_alg».proof.Proof.Gen.KernelIdeal.Frame
import Idealize.ShloMosaic.Lib.StableHlo.Run
import Idealize.ShloMosaic.PureOps.Ideal

set_option maxRecDepth 16384

noncomputable section

namespace Cert.AtomEnc.Stretches

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-! ## What the feature kernel is entered with -/

/-- The residue ids: `aa` broadcast along a new atom axis, then merged and given a unit axis. -/
theorem V1_v6 (c : Dev nD) : (V1 m ρ c main_v6 : S4x1x3584.Idx → BitVec 32)
    = shapeCast S4x1x3584 (shapeCast S4x3584 (broadcastInDim S4x256x14 ![0, 1] bcast_S4x256_S4x256x14_0_1
        (m ((c : Thread nD τ).loc main_arg0))) shapeCasts_S4x256x14_S4x3584) shapeCasts_S4x3584_S4x1x3584 := by
  show StableHlo.after hostOps0 (W0 m ρ c) (Proc.devRef .tc main_v6) = _
  after_results <;> rfl

/-- The atom ids: `0 … 13` broadcast along a new residue axis, then merged and given a unit axis. -/
theorem V1_v7 (c : Dev nD) : (V1 m ρ c main_v7 : S1x3584.Idx → BitVec 32)
    = shapeCast S1x3584 (shapeCast S3584 (broadcastInDim S256x14 ![0, 1] bcast_S1x14_S256x14_0_1
        (shapeCast S1x14 (iotaInDim S14 32 0) shapeCasts_S14_S1x14)) shapeCasts_S256x14_S3584) shapeCasts_S3584_S1x3584 := by
  show StableHlo.after hostOps0 (W0 m ρ c) (Proc.devRef .tc main_v7) = _
  after_results <;> rfl

/-- The coordinates: the positions with residue and atom axes merged. -/
theorem V1_v8 (c : Dev nD) : (V1 m ρ c main_v8 : S4x3584x3.Idx → EReal)
    = shapeCast S4x3584x3 (m ((c : Thread nD τ).loc main_arg1)) shapeCasts_S4x256x14x3_S4x3584x3 := by
  show StableHlo.after hostOps0 (W0 m ρ c) (Proc.devRef .tc main_v8) = _
  after_results <;> rfl

/-- The combined table. -/
theorem V1_v14 (c : Dev nD) : (V1 m ρ c main_v14 : S35x125.Idx → EReal)
    = concatenate S35x125 0 [⟨S21x125, concatenate S21x125 1 [⟨S21x62, m ((c : Thread nD τ).loc main_arg3)⟩, ⟨S21x63, broadcastInDim S21x63 ![] bcast_S_S21x63 (constant (F := Ideal) S_ .f32 0x00000000#32)⟩] concatenates_S21x62_S21x63_S21x125_d1⟩,
        ⟨S14x125, concatenate S14x125 1 [⟨S14x62, broadcastInDim S14x62 ![] bcast_S_S14x62 (constant (F := Ideal) S_ .f32 0x00000000#32)⟩, ⟨S14x63, m ((c : Thread nD τ).loc main_arg4)⟩] concatenates_S14x62_S14x63_S14x125_d1⟩] concatenates_S21x125_S14x125_S35x125_d0 := by
  show StableHlo.after hostOps0 (W0 m ρ c) (Proc.devRef .tc main_v14) = _
  after_results <;> rfl

/-! ## What the edge kernel is entered with -/

/-- The feature kernel only reads the coordinates: the edge kernel finds them as the feature kernel did. -/
theorem V3_v8 (c : Dev nD) : V3 m ρ c main_v8 = V1 m ρ c main_v8 := by
  have h1 : W3 m ρ c (Proc.devRef .tc main_v8) = W2 m ρ c (Proc.devRef .tc main_v8) :=
    StableHlo.after_of_forall_not_mem (b := Proc.devRef .tc main_v8) _ _ (List.forall_iff_forall_mem.mp (by
      simp only [hostOps1, List.Forall, StableHlo.unary_writes, Finset.mem_singleton]
      exact StableHlo.devRef_ne_of_ne (by decide)))
  have h2 : W2 m ρ c (Proc.devRef .tc main_v8) = (dat0 (V1 m ρ) c).arrAt 2 cfg0.N := W2_arr m ρ c 2
  have h3 : (dat0 (V1 m ρ) c).arrAt 2 cfg0.N = (dat0 (V1 m ρ) c).A 2 := (dat0 (V1 m ρ) c).arrAt_in 2 rfl cfg0.N
  exact h1.trans (h2.trans (h3.trans (A_eq0 (V1 m ρ) c 2)))

/-- The transposed coordinates `[4, 3, 3584]`. -/
theorem V3_v16 (c : Dev nD) : (V3 m ρ c main_v16 : S4x3x3584.Idx → EReal)
    = transpose S4x3x3584 [0, 2, 1] (V1 m ρ c main_v8 : S4x3584x3.Idx → EReal) transposes_S4x3584x3_S4x3x3584_0_2_1 := by
  rw [← V3_v8 m ρ c]
  have h1 : W3 m ρ c (Proc.devRef .tc main_v8) = W2 m ρ c (Proc.devRef .tc main_v8) :=
    StableHlo.after_of_forall_not_mem (b := Proc.devRef .tc main_v8) _ _ (List.forall_iff_forall_mem.mp (by
      simp only [hostOps1, List.Forall, StableHlo.unary_writes, Finset.mem_singleton]
      exact StableHlo.devRef_ne_of_ne (by decide)))
  show StableHlo.after hostOps1 (W2 m ρ c) (Proc.devRef .tc main_v16) = transpose S4x3x3584 [0, 2, 1] (W3 m ρ c (Proc.devRef .tc main_v8)) _
  rw [h1]
  after_results <;> rfl

/-! ## The results, read back to the kernels' write-backs -/

/-- The features are what the feature kernel's write-backs leave: nothing after it writes them. -/
theorem W5_v15 (c : Dev nD) : W5 m ρ c (Proc.devRef .tc main_v15) = (dat0 (V1 m ρ) c).arrAt 4 cfg0.N :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps2, List.Forall, StableHlo.nullary_writes, StableHlo.unary_writes, StableHlo.binary_writes, Finset.mem_singleton]
          repeat' apply And.intro
          all_goals exact StableHlo.devRef_ne_of_ne (by decide)))
    _ = W3 m ρ c (Proc.devRef .tc main_v15) := W4_of_ne m ρ c main_v15 (by decide)
    _ = W2 m ρ c (Proc.devRef .tc main_v15) := StableHlo.after_of_forall_not_mem (b := Proc.devRef .tc main_v15) _ _ (List.forall_iff_forall_mem.mp (by
          simp only [hostOps1, List.Forall, StableHlo.unary_writes, Finset.mem_singleton]
          exact StableHlo.devRef_ne_of_ne (by decide)))
    _ = (dat0 (V1 m ρ) c).arrAt 4 cfg0.N := W2_arr m ρ c 4

/-- The atom mask is the argument mask with residue and atom axes merged. -/
theorem W5_v9 (c : Dev nD) : (W5 m ρ c (Proc.devRef .tc main_v9) : S4x3584.Idx → BitVec 1)
    = shapeCast S4x3584 (m ((c : Thread nD τ).loc main_arg2)) shapeCasts_S4x256x14_S4x3584 :=
  calc W5 m ρ c (Proc.devRef .tc main_v9)
    _ = W4 m ρ c (Proc.devRef .tc main_v9) := StableHlo.after_of_forall_not_mem (b := Proc.devRef .tc main_v9) _ _ (List.forall_iff_forall_mem.mp (by
          simp only [hostOps2, List.Forall, StableHlo.nullary_writes, StableHlo.unary_writes, StableHlo.binary_writes, Finset.mem_singleton]
          repeat' apply And.intro
          all_goals exact StableHlo.devRef_ne_of_ne (by decide)))
    _ = W3 m ρ c (Proc.devRef .tc main_v9) := W4_of_ne m ρ c main_v9 (by decide)
    _ = W2 m ρ c (Proc.devRef .tc main_v9) := StableHlo.after_of_forall_not_mem (b := Proc.devRef .tc main_v9) _ _ (List.forall_iff_forall_mem.mp (by
          simp only [hostOps1, List.Forall, StableHlo.unary_writes, Finset.mem_singleton]
          exact StableHlo.devRef_ne_of_ne (by decide)))
    _ = W1 m ρ c (Proc.devRef .tc main_v9) := W2_of_ne m ρ c main_v9 (by decide)
    _ = shapeCast S4x3584 (m ((c : Thread nD τ).loc main_arg2)) shapeCasts_S4x256x14_S4x3584 := by
          show StableHlo.after hostOps0 (W0 m ρ c) (Proc.devRef .tc main_v9) = _
          after_results <;> rfl

/-- The edge mask: the bit "the edge kernel's word is not zero". -/
theorem W5_v20 (c : Dev nD) : (W5 m ρ c (Proc.devRef .tc main_v20) : S4x3584x3584.Idx → BitVec 1)
    = cmpi .ne ((dat1 (V3 m ρ) c).arrAt 2 cfg1.N : S4x3584x3584.Idx → BitVec 32)
        (broadcastInDim S4x3584x3584 ![] bcast_S_S4x3584x3584 (constantI S_ 32 0#32)) := by
  rw [← W4_arr m ρ c 2]
  show StableHlo.after hostOps2 (W4 m ρ c) (Proc.devRef .tc main_v20) = _
  after_results <;> rfl

end Cert.AtomEnc.Stretches

end
-- ==== Proof.HostReads.lean ====
/-
  The arrays the host operations build, read at an index.

  * The residue id of atom `r` of batch `n` is `aa (n, r / 14)`: `aa` is repeated 14 times along a new last axis
    and the last two axes are merged, so position `r` of the merged axis is residue `r / 14`, atom `r % 14`.
  * The atom id of atom `r` is `r % 14`: the numbers `0 … 13` are repeated 256 times along a new first axis and
    the axes are merged.
  * The combined table `[35, 125]`: rows `0 … 20` hold the residue table in columns `0 … 61` and zeros beyond;
    rows `21 … 34` hold zeros in columns `0 … 61` and the atom table beyond.
  * The transposed coordinates at `(n, d, j)` are the coordinates at `(n, j, d)`.
-/
import Idealize.ShloMosaic.PureOps.Ideal
import Idealize.ShloMosaic.Lib.ValueIdx
import Idealize.ShloMosaic.Lib.Pipeline.Value
import Idealize.ShloMosaic.PureOps.Ideal.Laws

noncomputable section

namespace Cert.AtomEnc.HostReads

open Idealize.ShloMosaic Idealize.ShloMosaic.ValueIdx

/-- The residue id of atom `r` of batch `n`. -/
theorem rid_apply (aa : (⟨2, ![4, 256]⟩ : Shape).Idx → BitVec 32)
    (hb : (⟨2, ![4, 256]⟩ : Shape).BroadcastsInDim ⟨3, ![4, 256, 14]⟩ ![0, 1])
    (h1 : (⟨3, ![4, 256, 14]⟩ : Shape).ShapeCasts ⟨2, ![4, 3584]⟩)
    (h2 : (⟨2, ![4, 3584]⟩ : Shape).ShapeCasts ⟨3, ![4, 1, 3584]⟩) (n : Fin 4) (r : Fin 3584) :
    shapeCast ⟨3, ![4, 1, 3584]⟩ (shapeCast ⟨2, ![4, 3584]⟩ (broadcastInDim ⟨3, ![4, 256, 14]⟩ ![0, 1] hb aa) h1) h2
        (ix3 n (0 : Fin 1) r)
      = aa (ix2 n (⟨r.val / 14, by omega⟩ : Fin 256)) := by
  refine (shapeCast_apply _ h2 (ix3 n (0 : Fin 1) r) (ix2 n r) ?_).trans ?_
  · rw [Shape.rowMajor_val_two, Shape.rowMajor_val_three]
    show n.val * 3584 + r.val = (n.val * 1 + 0) * 3584 + r.val
    omega
  refine (shapeCast_apply _ h1 (ix2 n r) (ix3 n (⟨r.val / 14, by omega⟩ : Fin 256) (⟨r.val % 14, Nat.mod_lt _ (by omega)⟩ : Fin 14)) ?_).trans ?_
  · rw [Shape.rowMajor_val_two, Shape.rowMajor_val_three]
    show (n.val * 256 + r.val / 14) * 14 + r.val % 14 = n.val * 3584 + r.val
    omega
  exact broadcastInDim_apply ![0, 1] hb aa _ (ix2 n (⟨r.val / 14, by omega⟩ : Fin 256))
    (fun a => match a with | ⟨0, _⟩ => rfl | ⟨1, _⟩ => rfl)

/-- The atom id of atom `r`. -/
theorem aid_apply (h0 : (⟨1, ![14]⟩ : Shape).ShapeCasts ⟨2, ![1, 14]⟩)
    (hb : (⟨2, ![1, 14]⟩ : Shape).BroadcastsInDim ⟨2, ![256, 14]⟩ ![0, 1])
    (h1 : (⟨2, ![256, 14]⟩ : Shape).ShapeCasts ⟨1, ![3584]⟩)
    (h2 : (⟨1, ![3584]⟩ : Shape).ShapeCasts ⟨2, ![1, 3584]⟩) (r : Fin 3584) :
    shapeCast ⟨2, ![1, 3584]⟩ (shapeCast ⟨1, ![3584]⟩ (broadcastInDim ⟨2, ![256, 14]⟩ ![0, 1] hb
        (shapeCast ⟨2, ![1, 14]⟩ (iotaInDim ⟨1, ![14]⟩ 32 0) h0)) h1) h2 (ix2 (0 : Fin 1) r)
      = BitVec.ofNat 32 (r.val % 14) := by
  refine (shapeCast_apply _ h2 (ix2 (0 : Fin 1) r) (ix1 r) ?_).trans ?_
  · rw [Shape.rowMajor_val_one, Shape.rowMajor_val_two]
    show r.val = 0 * 3584 + r.val
    omega
  refine (shapeCast_apply _ h1 (ix1 r) (ix2 (⟨r.val / 14, by omega⟩ : Fin 256) (⟨r.val % 14, Nat.mod_lt _ (by omega)⟩ : Fin 14)) ?_).trans ?_
  · rw [Shape.rowMajor_val_one, Shape.rowMajor_val_two]
    show r.val / 14 * 14 + r.val % 14 = r.val
    omega
  refine (broadcastInDim_apply ![0, 1] hb _ _ (ix2 (0 : Fin 1) (⟨r.val % 14, Nat.mod_lt _ (by omega)⟩ : Fin 14))
    (fun a => match a with | ⟨0, _⟩ => rfl | ⟨1, _⟩ => rfl)).trans ?_
  refine (shapeCast_apply _ h0 _ (ix1 (⟨r.val % 14, Nat.mod_lt _ (by omega)⟩ : Fin 14)) ?_).trans ?_
  · rw [Shape.rowMajor_val_one, Shape.rowMajor_val_two]
    show r.val % 14 = 0 * 14 + r.val % 14
    omega
  rfl

/-- The transposed coordinates. -/
theorem transpose_apply (x : (⟨3, ![4, 3584, 3]⟩ : Shape).Idx → EReal)
    (h : (⟨3, ![4, 3584, 3]⟩ : Shape).Transposes [0, 2, 1] ⟨3, ![4, 3, 3584]⟩) (n : Fin 4) (d : Fin 3) (j : Fin 3584) :
    transpose ⟨3, ![4, 3, 3584]⟩ [0, 2, 1] x h (ix3 n d j) = x (ix3 n j d) :=
  Idealize.ShloMosaic.transpose_apply [0, 2, 1] x h (ix3 n d j) (ix3 n j d)
    (fun b => match b with | ⟨0, _⟩ => rfl | ⟨1, _⟩ => rfl | ⟨2, _⟩ => rfl)

/-- The combined table, entry by entry. -/
def tableOf (res : (⟨2, ![21, 62]⟩ : Shape).Idx → EReal) (atom : (⟨2, ![14, 63]⟩ : Shape).Idx → EReal)
    (k : Fin 35) (c : Fin 125) : EReal :=
  if hk : k.val < 21 then
    (if hc : c.val < 62 then res (ix2 (⟨k.val, hk⟩ : Fin 21) (⟨c.val, hc⟩ : Fin 62)) else 0)
  else
    (if hc : c.val < 62 then 0 else atom (ix2 (⟨k.val - 21, by omega⟩ : Fin 14) (⟨c.val - 62, by omega⟩ : Fin 63)))

/-- A zero block read anywhere is `0`. -/
theorem zeros_apply {t : Shape} (h : (⟨0, ![]⟩ : Shape).BroadcastsInDim t ![]) (j : t.Idx) :
    broadcastInDim t ![] h (constant (F := Ideal) ⟨0, ![]⟩ .f32 0x00000000#32) j = 0 := by
  show FloatOps.ofBits (F := Ideal) .f32 0x00000000#32 = 0
  rw [Ideal.ofBits_def, Ideal.ofBits_zero_f32]

/-- The residue table beside a zero block, then on top of a zero block beside the atom table. -/
theorem table_apply (res : (⟨2, ![21, 62]⟩ : Shape).Idx → EReal) (atom : (⟨2, ![14, 63]⟩ : Shape).Idx → EReal)
    (hz1 : (⟨0, ![]⟩ : Shape).BroadcastsInDim ⟨2, ![21, 63]⟩ ![]) (hz2 : (⟨0, ![]⟩ : Shape).BroadcastsInDim ⟨2, ![14, 62]⟩ ![])
    (hc1 : Shape.Concatenates [(⟨2, ![21, 62]⟩ : Shape), ⟨2, ![21, 63]⟩] ⟨2, ![21, 125]⟩ 1)
    (hc2 : Shape.Concatenates [(⟨2, ![14, 62]⟩ : Shape), ⟨2, ![14, 63]⟩] ⟨2, ![14, 125]⟩ 1)
    (hc3 : Shape.Concatenates [(⟨2, ![21, 125]⟩ : Shape), ⟨2, ![14, 125]⟩] ⟨2, ![35, 125]⟩ 0)
    (k : Fin 35) (c : Fin 125) :
    concatenate ⟨2, ![35, 125]⟩ 0
        [⟨⟨2, ![21, 125]⟩, concatenate ⟨2, ![21, 125]⟩ 1 [⟨⟨2, ![21, 62]⟩, res⟩,
            ⟨⟨2, ![21, 63]⟩, broadcastInDim ⟨2, ![21, 63]⟩ ![] hz1 (constant (F := Ideal) ⟨0, ![]⟩ .f32 0x00000000#32)⟩] hc1⟩,
         ⟨⟨2, ![14, 125]⟩, concatenate ⟨2, ![14, 125]⟩ 1 [⟨⟨2, ![14, 62]⟩,
            broadcastInDim ⟨2, ![14, 62]⟩ ![] hz2 (constant (F := Ideal) ⟨0, ![]⟩ .f32 0x00000000#32)⟩, ⟨⟨2, ![14, 63]⟩, atom⟩] hc2⟩] hc3
        (ix2 k c)
      = tableOf res atom k c := by
  unfold tableOf
  by_cases hk : k.val < 21
  · rw [dif_pos hk]
    refine (concatenate_pair_apply_left (s₁ := ⟨2, ![21, 125]⟩) (s₂ := ⟨2, ![14, 125]⟩) (0 : Fin 2) _ _ hc3 (ix2 k c) rfl (ix2 (⟨k.val, hk⟩ : Fin 21) c)
      (fun b => match b with | ⟨0, _⟩ => rfl | ⟨1, _⟩ => rfl)).trans ?_
    by_cases hc : c.val < 62
    · rw [dif_pos hc]
      exact concatenate_pair_apply_left (s₁ := ⟨2, ![21, 62]⟩) (s₂ := ⟨2, ![21, 63]⟩) (1 : Fin 2) _ _ hc1 (ix2 (⟨k.val, hk⟩ : Fin 21) c) rfl
        (ix2 (⟨k.val, hk⟩ : Fin 21) (⟨c.val, hc⟩ : Fin 62)) (fun b => match b with | ⟨0, _⟩ => rfl | ⟨1, _⟩ => rfl)
    · rw [dif_neg hc]
      refine (concatenate_pair_apply_right (s₁ := ⟨2, ![21, 62]⟩) (s₂ := ⟨2, ![21, 63]⟩) (1 : Fin 2) _ _ hc1 (ix2 (⟨k.val, hk⟩ : Fin 21) c) rfl rfl
        (ix2 (⟨k.val, hk⟩ : Fin 21) (⟨c.val - 62, by omega⟩ : Fin 63))
        (fun b hb => match b, hb with | ⟨0, _⟩, _ => rfl | ⟨1, _⟩, hb => absurd rfl hb) ?_).trans (zeros_apply hz1 _)
      show c.val - 62 + 62 = c.val
      omega
  · rw [dif_neg hk]
    refine (concatenate_pair_apply_right (s₁ := ⟨2, ![21, 125]⟩) (s₂ := ⟨2, ![14, 125]⟩) (0 : Fin 2) _ _ hc3 (ix2 k c) rfl rfl (ix2 (⟨k.val - 21, by omega⟩ : Fin 14) c)
      (fun b hb => match b, hb with | ⟨0, _⟩, hb => absurd rfl hb | ⟨1, _⟩, _ => rfl) ?_).trans ?_
    · show k.val - 21 + 21 = k.val
      omega
    by_cases hc : c.val < 62
    · rw [dif_pos hc]
      exact (concatenate_pair_apply_left (s₁ := ⟨2, ![14, 62]⟩) (s₂ := ⟨2, ![14, 63]⟩) (1 : Fin 2) _ _ hc2 (ix2 (⟨k.val - 21, by omega⟩ : Fin 14) c) rfl
        (ix2 (⟨k.val - 21, by omega⟩ : Fin 14) (⟨c.val, hc⟩ : Fin 62)) (fun b => match b with | ⟨0, _⟩ => rfl | ⟨1, _⟩ => rfl)).trans
        (zeros_apply hz2 _)
    · rw [dif_neg hc]
      refine concatenate_pair_apply_right (s₁ := ⟨2, ![14, 62]⟩) (s₂ := ⟨2, ![14, 63]⟩) (1 : Fin 2) _ _ hc2 (ix2 (⟨k.val - 21, by omega⟩ : Fin 14) c) rfl rfl
        (ix2 (⟨k.val - 21, by omega⟩ : Fin 14) (⟨c.val - 62, by omega⟩ : Fin 63))
        (fun b hb => match b, hb with | ⟨0, _⟩, _ => rfl | ⟨1, _⟩, hb => absurd rfl hb) ?_
      show c.val - 62 + 62 = c.val
      omega

end Cert.AtomEnc.HostReads

end
-- ==== Proof.LibOneHot.lean ====
/-
  One-hot selection as a sum, on the extended reals.

  A row lookup written as a product with a one-hot row: the sum over a finite index set of an indicator of ONE
  index times a function is the function at that index, and the sum against an indicator that holds nowhere is
  zero — with no finiteness needed, because on the extended reals `0 · x = 0` and `1 · x = x` for every `x`,
  infinities included. Beside it: when a machine word `w` below the table's length is shifted down by a block
  offset `1408 k`, the shifted word equals a position `j` of the block exactly when `w` is row `j` of block `k`;
  and a value recombined from a head and a residual, `x + (x − x)`, is `x` unless `x` is `+∞`.
-/
import Mathlib.Data.EReal.Operations
import Mathlib.Algebra.BigOperators.Group.Finset.Basic

namespace Cert.OneHot

open Finset

/-- A sum against the indicator of exactly one index is the entry there. -/
theorem sum_indicator_mul_eq {ι : Type} [Fintype ι] [DecidableEq ι] (j0 : ι) (H : ι → EReal)
    (P : ι → Prop) [DecidablePred P] (hP : ∀ j, P j ↔ j = j0) :
    (∑ j, (if P j then (1 : EReal) else 0) * H j) = H j0 := by
  rw [Finset.sum_eq_single j0]
  · rw [if_pos ((hP j0).mpr rfl), one_mul]
  · intro j _ hj
    rw [if_neg (fun h => hj ((hP j).mp h)), zero_mul]
  · intro h; exact absurd (Finset.mem_univ j0) h

/-- A sum against an indicator that holds nowhere is zero. -/
theorem sum_indicator_mul_none {ι : Type} [Fintype ι] (H : ι → EReal)
    (P : ι → Prop) [DecidablePred P] (hP : ∀ j, ¬P j) :
    (∑ j, (if P j then (1 : EReal) else 0) * H j) = 0 := by
  apply Finset.sum_eq_zero
  intro j _
  rw [if_neg (hP j), zero_mul]

/-- A word below 8448 shifted down by `1408 k` (`k < 6`) is position `j < 1408` exactly when it is row `j` of block `k`. -/
theorem ofNat_eq_sub_iff (w : BitVec 32) (k j : ℕ) (hw : w.toNat < 8448) (hk : k < 6) (hj : j < 1408) :
    BitVec.ofNat 32 j = w - BitVec.ofNat 32 k * 1408#32 ↔ w.toNat = 1408 * k + j := by
  rw [← BitVec.toNat_inj]
  simp only [BitVec.toNat_sub, BitVec.toNat_mul, BitVec.toNat_ofNat]
  omega

/-- A value recombined from itself and its own residual is itself, unless it is `+∞`. -/
theorem add_sub_self_of_ne_top {x : EReal} (h : x ≠ ⊤) : x + (x - x) = x := by
  induction x using EReal.rec with
  | bot => exact EReal.bot_add _
  | coe r =>
    rw [← EReal.coe_sub, sub_self, EReal.coe_zero, add_zero]
  | top => exact absurd rfl h

/-- Zero has no residual. -/
theorem zero_sub_zero : (0 : EReal) - 0 = 0 := by simp

end Cert.OneHot
-- ==== Proof.FeatBody.lean ====
/-
  One grid point of the feature kernel, read at an index.
-/
import proofs.«430467_j57887569215661_3_alg».proof.Proof.Gen.KernelIdeal.Skeleton
import proofs.«430467_j57887569215661_3_alg».proof.Proof.Spec
import proofs.«430467_j57887569215661_3_alg».proof.Proof.LibOneHot
import Idealize.ShloMosaic.Lib.ValueIdx
import Idealize.ShloMosaic.Lib.ValueLayout
import Idealize.ShloMosaic.Lib.Pipeline.Value
import Idealize.ShloMosaic.PureOps.Ideal.Laws

noncomputable section

namespace Cert.AtomEnc.FeatBody

open Idealize.ShloMosaic Idealize.ShloMosaic.ValueIdx Cert.KernelIdeal Cert.KernelIdeal.Gen

/-! ## Words -/

/-- The indicator word of an equality test, widened and read as a number. -/
theorem sitofp_eq_word (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · subst h; simp
  · have : (a == b) = false := by simpa using h
    simp [this, h]

/-- Below 35, the signed comparison of a column number with 21 is the comparison of naturals. -/
theorem slt_21 : ∀ k : Fin 35, (BitVec.ofNat 32 k.val).slt 21#32 = decide (k.val < 21) := by decide

/-- The one-hot entry at column `k`: the residue id's column among the first 21, the atom id's, shifted by 21, among the rest. -/
theorem onehot_word (a b : BitVec 32) (k : Fin 35) (ha : a.toNat < 21) (hb : b.toNat < 14) :
    Scalar.select (IntOp.cmpi .slt (BitVec.ofNat 32 k.val) 21#32)
      (FloatOps.sitofp (F := Ideal) .f32 ((IntOp.cmpi .eq a (BitVec.ofNat 32 k.val)).setWidth 32))
      (FloatOps.sitofp (F := Ideal) .f32 ((IntOp.cmpi .eq (IntOp.addi b 21#32) (BitVec.ofNat 32 k.val)).setWidth 32))
    = if k.val = a.toNat ∨ k.val = 21 + b.toNat then (1 : EReal) else 0 := by
  rw [sitofp_eq_word, sitofp_eq_word]
  have hk := k.isLt
  have e1 : (a = BitVec.ofNat 32 k.val) ↔ k.val = a.toNat := by
    rw [← BitVec.toNat_inj, BitVec.toNat_ofNat]; omega
  have e2 : (IntOp.addi b 21#32 = BitVec.ofNat 32 k.val) ↔ k.val = 21 + b.toNat := by
    unfold IntOp.addi
    rw [← BitVec.toNat_inj, BitVec.toNat_add, BitVec.toNat_ofNat, BitVec.toNat_ofNat]; omega
  have hs : IntOp.cmpi .slt (BitVec.ofNat 32 k.val) 21#32 = BitVec.ofBool (decide (k.val < 21)) := by
    unfold IntOp.cmpi; exact congrArg BitVec.ofBool (slt_21 k)
  rw [hs]
  unfold Scalar.select
  by_cases hlt : k.val < 21
  · rw [decide_eq_true hlt, if_pos (by decide)]
    by_cases h : a = BitVec.ofNat 32 k.val
    · rw [if_pos h, if_pos (Or.inl (e1.mp h))]
    · rw [if_neg h, if_neg (fun hh => hh.elim (fun h1 => h (e1.mpr h1)) (fun h2 => by omega))]
  · rw [decide_eq_false hlt, if_neg (by decide)]
    by_cases h : IntOp.addi b 21#32 = BitVec.ofNat 32 k.val
    · rw [if_pos h, if_pos (Or.inr (e2.mp h))]
    · rw [if_neg h, if_neg (fun hh => hh.elim (fun h1 => by omega) (fun h2 => h (e2.mpr h2)))]

/-! ## The id columns and the one-hot matrix at an index -/

/-- The residue ids as a column, read at a row. -/
theorem resid_col_apply (x0 : Vec Ideal S1x1x3584 .i32) (r : Fin 3584) (u : Fin 1) :
    shapeCast S3584x1 (shapeCast S3584 x0 shapeCasts_S1x1x3584_S3584) shapeCasts_S3584_S3584x1 (ix2 r u)
      = x0 (ix3 (0 : Fin 1) (0 : Fin 1) r) := by
  refine (shapeCast_apply _ shapeCasts_S3584_S3584x1 (ix2 r u) (ix1 r) ?_).trans ?_
  · rw [Shape.rowMajor_val_one, Shape.rowMajor_val_two]
    show r.val = r.val * 1 + u.val
    omega
  · refine shapeCast_apply x0 shapeCasts_S1x1x3584_S3584 (ix1 r) (ix3 (0 : Fin 1) (0 : Fin 1) r) ?_
    rw [Shape.rowMajor_val_three, Shape.rowMajor_val_one]
    show (0 * 1 + 0) * 3584 + r.val = r.val
    omega

/-- The atom ids as a column, read at a row. -/
theorem atomid_col_apply (x1 : Vec Ideal S1x3584 .i32) (r : Fin 3584) (u : Fin 1) :
    shapeCast S3584x1 (shapeCast S3584 x1 shapeCasts_S1x3584_S3584) shapeCasts_S3584_S3584x1 (ix2 r u)
      = x1 (ix2 (0 : Fin 1) r) := by
  refine (shapeCast_apply _ shapeCasts_S3584_S3584x1 (ix2 r u) (ix1 r) ?_).trans ?_
  · rw [Shape.rowMajor_val_one, Shape.rowMajor_val_two]
    show r.val = r.val * 1 + u.val
    omega
  · refine shapeCast_apply x1 shapeCasts_S1x3584_S3584 (ix1 r) (ix2 (0 : Fin 1) r) ?_
    rw [Shape.rowMajor_val_two, Shape.rowMajor_val_one]
    show 0 * 3584 + r.val = r.val
    omega

/-- A column spread over 35 columns reads its row's entry. -/
theorem spread_apply {α : Type} (v : S3584x1.Idx → α) (r : Fin 3584) (k : Fin 35) :
    broadcastTo S3584x35 v broadcasts_S3584x1_S3584x35 (ix2 r k) = v (ix2 r (0 : Fin 1)) := by
  refine broadcastTo_apply v broadcasts_S3584x1_S3584x35 (ix2 r k) (ix2 r (0 : Fin 1)) fun ax => ?_
  match ax with
  | ⟨0, _⟩ => rfl
  | ⟨1, _⟩ => rfl

/-- The column number at an index of the [3584, 35] grid. -/
theorem colno_apply (r : Fin 3584) (k : Fin 35) :
    iota .tc S3584x35 32 [1] iota_S3584x35_d1_w32 (ix2 r k) = BitVec.ofNat 32 k.val :=
  iota_single_apply .tc S3584x35 32 1 iota_S3584x35_d1_w32 (ix2 r k)

/-- The one-hot matrix of the kernel: per atom, a one at its residue id's column and a one at its atom id's column shifted by 21. -/
def onehot (x0 : Vec Ideal S1x1x3584 .i32) (x1 : Vec Ideal S1x3584 .i32) : FVec Ideal S3584x35 .f32 :=
  select (cmpi .slt (iota .tc S3584x35 32 [1] iota_S3584x35_d1_w32) (broadcast S3584x35 21#32))
    (sitofp .f32 (extui 32 (cmpi .eq
      (broadcastTo S3584x35 (shapeCast S3584x1 (shapeCast S3584 x0 shapeCasts_S1x1x3584_S3584) shapeCasts_S3584_S3584x1)
        broadcasts_S3584x1_S3584x35)
      (iota .tc S3584x35 32 [1] iota_S3584x35_d1_w32)) natLt_1_32))
    (sitofp .f32 (extui 32 (cmpi .eq
      (broadcastTo S3584x35
        (addi (shapeCast S3584x1 (shapeCast S3584 x1 shapeCasts_S1x3584_S3584) shapeCasts_S3584_S3584x1) (broadcast S3584x1 21#32))
        broadcasts_S3584x1_S3584x35)
      (iota .tc S3584x35 32 [1] iota_S3584x35_d1_w32)) natLt_1_32))

/-- Its entry at row `r`, column `k`. -/
theorem onehot_apply (x0 : Vec Ideal S1x1x3584 .i32) (x1 : Vec Ideal S1x3584 .i32) (r : Fin 3584) (k : Fin 35)
    (h0 : (x0 (ix3 (0 : Fin 1) (0 : Fin 1) r) : BitVec 32).toNat < 21)
    (h1 : (x1 (ix2 (0 : Fin 1) r) : BitVec 32).toNat < 14) :
    onehot x0 x1 (ix2 r k) =
      if k.val = (x0 (ix3 (0 : Fin 1) (0 : Fin 1) r) : BitVec 32).toNat ∨ k.val = 21 + (x1 (ix2 (0 : Fin 1) r) : BitVec 32).toNat
        then (1 : EReal) else 0 := by
  refine Eq.trans ?_ (onehot_word (x0 (ix3 (0 : Fin 1) (0 : Fin 1) r)) (x1 (ix2 (0 : Fin 1) r)) k h0 h1)
  unfold onehot
  rw [select_apply]
  show Scalar.select (IntOp.cmpi .slt (iota .tc S3584x35 32 [1] iota_S3584x35_d1_w32 (ix2 r k)) 21#32)
      (FloatOps.sitofp (F := Ideal) .f32 ((IntOp.cmpi .eq
        (broadcastTo S3584x35 (shapeCast S3584x1 (shapeCast S3584 x0 shapeCasts_S1x1x3584_S3584) shapeCasts_S3584_S3584x1)
          broadcasts_S3584x1_S3584x35 (ix2 r k))
        (iota .tc S3584x35 32 [1] iota_S3584x35_d1_w32 (ix2 r k))).setWidth 32))
      (FloatOps.sitofp (F := Ideal) .f32 ((IntOp.cmpi .eq
        (broadcastTo S3584x35
          (addi (shapeCast S3584x1 (shapeCast S3584 x1 shapeCasts_S1x3584_S3584) shapeCasts_S3584_S3584x1) (broadcast S3584x1 21#32))
          broadcasts_S3584x1_S3584x35 (ix2 r k))
        (iota .tc S3584x35 32 [1] iota_S3584x35_d1_w32 (ix2 r k))).setWidth 32)) = _
  rw [colno_apply, spread_apply, spread_apply, resid_col_apply]
  show Scalar.select _ _ (FloatOps.sitofp (F := Ideal) .f32 ((IntOp.cmpi .eq
        (IntOp.addi (shapeCast S3584x1 (shapeCast S3584 x1 shapeCasts_S1x3584_S3584) shapeCasts_S3584_S3584x1 (ix2 r (0 : Fin 1))) 21#32)
        _).setWidth 32)) = _
  rw [atomid_col_apply]

/-! ## The product with the table at an index -/

theorem lhs_feat_0 (i : S3584x125.Idx) (q : dot_S3584x35_S35x125_S3584x125_1_0_0_1_n_n.contr.Idx) :
    (dot_S3584x35_S35x125_S3584x125_1_0_0_1_n_n.lhsIdx i q 0).val = (i 0).val := by
  unfold DotDims.lhsIdx
  rw [dif_neg (show ¬(0 : Fin S3584x35.rank) ∈ dot_S3584x35_S35x125_S3584x125_1_0_0_1_n_n.lhsBatch by decide),
    dif_pos (show (0 : Fin S3584x35.rank) ∈ dot_S3584x35_S35x125_S3584x125_1_0_0_1_n_n.lhsNonContracting by decide)]
  rfl
theorem lhs_feat_1 (i : S3584x125.Idx) (q : dot_S3584x35_S35x125_S3584x125_1_0_0_1_n_n.contr.Idx) :
    (dot_S3584x35_S35x125_S3584x125_1_0_0_1_n_n.lhsIdx i q 1).val = (q ⟨0, by decide⟩).val :=
  dot_S3584x35_S35x125_S3584x125_1_0_0_1_n_n.lhsIdx_val_of_single rfl i q
theorem rhs_feat_0 (i : S3584x125.Idx) (q : dot_S3584x35_S35x125_S3584x125_1_0_0_1_n_n.contr.Idx) :
    (dot_S3584x35_S35x125_S3584x125_1_0_0_1_n_n.rhsIdx i q 0).val = (q ⟨0, by decide⟩).val :=
  dot_S3584x35_S35x125_S3584x125_1_0_0_1_n_n.rhsIdx_val_of_single rfl i q
theorem rhs_feat_1 (i : S3584x125.Idx) (q : dot_S3584x35_S35x125_S3584x125_1_0_0_1_n_n.contr.Idx) :
    (dot_S3584x35_S35x125_S3584x125_1_0_0_1_n_n.rhsIdx i q 1).val = (i 1).val := by
  unfold DotDims.rhsIdx
  rw [dif_neg (show ¬(1 : Fin S35x125.rank) ∈ dot_S3584x35_S35x125_S3584x125_1_0_0_1_n_n.rhsBatch by decide),
    dif_pos (show (1 : Fin S35x125.rank) ∈ dot_S3584x35_S35x125_S3584x125_1_0_0_1_n_n.rhsNonContracting by decide)]
  rfl

/-- The product of a [3584, 35] matrix with a [35, 125] matrix into the zero accumulator, at (r, c): the sum over the 35 columns. -/
theorem matmul_feat_apply (A : FVec Ideal S3584x35 .f32) (B : FVec Ideal S35x125 .f32) (r : Fin 3584) (c : Fin 125) :
    matmul dot_S3584x35_S35x125_S3584x125_1_0_0_1_n_n (some .fp32) A B (constant (F := Ideal) S3584x125 .f32 0x00000000#32) (ix2 r c)
      = ∑ k : Fin 35, A (ix2 r k) * B (ix2 k c) := by
  refine (Ideal.matmul_constant_zero_apply dot_S3584x35_S35x125_S3584x125_1_0_0_1_n_n (some .fp32) A B (ix2 r c)).trans ?_
  rw [← Equiv.sum_comp (contrEquiv1 dot_S3584x35_S35x125_S3584x125_1_0_0_1_n_n 35 rfl rfl).symm]
  refine Finset.sum_congr rfl fun k _ => ?_
  have hk := contrEquiv1_symm_val dot_S3584x35_S35x125_S3584x125_1_0_0_1_n_n 35 rfl rfl k
  have el : dot_S3584x35_S35x125_S3584x125_1_0_0_1_n_n.lhsIdx (ix2 r c) ((contrEquiv1 dot_S3584x35_S35x125_S3584x125_1_0_0_1_n_n 35 rfl rfl).symm k) = ix2 r k :=
    funext fun a => Fin.ext (by
      match a with
      | ⟨0, _⟩ => exact lhs_feat_0 _ _
      | ⟨1, _⟩ => exact (lhs_feat_1 _ _).trans hk)
  have er : dot_S3584x35_S35x125_S3584x125_1_0_0_1_n_n.rhsIdx (ix2 r c) ((contrEquiv1 dot_S3584x35_S35x125_S3584x125_1_0_0_1_n_n 35 rfl rfl).symm k) = ix2 k c :=
    funext fun a => Fin.ext (by
      match a with
      | ⟨0, _⟩ => exact (rhs_feat_0 _ _).trans hk
      | ⟨1, _⟩ => exact rhs_feat_1 _ _)
  rw [el, er]

/-! ## A row with two ones against a column -/

/-- A sum against the indicator of two different indices is the sum of the two entries: on the extended reals
    `0 · x = 0` and `1 · x = x` for every `x`, so nothing need be finite. -/
theorem sum_two_hot (H : Fin 35 → EReal) (a b : Fin 35) (hab : a ≠ b) :
    ∑ k : Fin 35, (if k.val = a.val ∨ k.val = b.val then (1 : EReal) else 0) * H k = H a + H b := by
  have hsplit : ∀ k : Fin 35, (if k.val = a.val ∨ k.val = b.val then (1 : EReal) else 0) * H k
      = (if k = a then (1 : EReal) else 0) * H k + (if k = b then (1 : EReal) else 0) * H k := by
    intro k
    by_cases h1 : k = a
    · subst h1
      have h2 : ¬ k = b := hab
      rw [if_pos (Or.inl rfl), if_pos rfl, if_neg h2, zero_mul, add_zero]
    · by_cases h2 : k = b
      · subst h2
        rw [if_pos (Or.inr rfl), if_neg h1, if_pos rfl, zero_mul, zero_add]
      · rw [if_neg (fun h => h.elim (fun h => h1 (Fin.ext h)) (fun h => h2 (Fin.ext h))), if_neg h1, if_neg h2,
          zero_mul, add_zero]
  rw [Finset.sum_congr rfl (fun k _ => hsplit k), Finset.sum_add_distrib,
    Cert.OneHot.sum_indicator_mul_eq a H (fun k => k = a) (fun _ => Iff.rfl),
    Cert.OneHot.sum_indicator_mul_eq b H (fun k => k = b) (fun _ => Iff.rfl)]

/-! ## The two pieces side by side -/

/-- Left of column 125 the concatenation reads the first piece. -/
theorem concat_left_apply (M : S3584x125.Idx → EReal) (X : S3584x3.Idx → EReal) (r : Fin 3584) (c : Fin 128) (h : c.val < 125) :
    concatenate S3584x128 1 [⟨S3584x125, M⟩, ⟨S3584x3, X⟩] concatenates_S3584x125_S3584x3_S3584x128_d1 (ix2 r c)
      = M (ix2 r (⟨c.val, h⟩ : Fin 125)) := by
  refine concatenate_pair_apply_left (1 : Fin S3584x128.rank) M X concatenates_S3584x125_S3584x3_S3584x128_d1 (ix2 r c) rfl
    (ix2 r (⟨c.val, h⟩ : Fin 125)) fun b => ?_
  match b with
  | ⟨0, _⟩ => rfl
  | ⟨1, _⟩ => rfl

/-- From column 125 on it reads the second piece, 125 columns back. -/
theorem concat_right_apply (M : S3584x125.Idx → EReal) (X : S3584x3.Idx → EReal) (r : Fin 3584) (c : Fin 128) (h : ¬ c.val < 125) :
    concatenate S3584x128 1 [⟨S3584x125, M⟩, ⟨S3584x3, X⟩] concatenates_S3584x125_S3584x3_S3584x128_d1 (ix2 r c)
      = X (ix2 r (⟨c.val - 125, by omega⟩ : Fin 3)) := by
  refine concatenate_pair_apply_right (1 : Fin S3584x128.rank) M X concatenates_S3584x125_S3584x3_S3584x128_d1 (ix2 r c) rfl rfl
    (ix2 r (⟨c.val - 125, by omega⟩ : Fin 3)) (fun b hb => ?_) ?_
  · match b with
    | ⟨0, _⟩ => rfl
    | ⟨1, _⟩ => exact absurd rfl hb
  · show (c.val - 125) + 125 = c.val
    omega

/-! ## The stored value at an index -/

/-- The stored value as the kernel composes it: the one-hot matrix times the table beside the coordinates, with a unit axis in front. -/
theorem pay_eq (x0 : Vec Ideal S1x1x3584 .i32) (x1 : Vec Ideal S1x3584 .i32) (x3 : Vec Ideal S35x125 .f32)
    (x2 : Vec Ideal S1x3584x3 .f32) :
    k0_pay1 (F := Ideal) x0 x1 x3 x2 =
      shapeCast S1x3584x128
        (concatenate S3584x128 1
          [⟨S3584x125, matmul dot_S3584x35_S35x125_S3584x125_1_0_0_1_n_n (some .fp32) (onehot x0 x1)
              (shapeCast S35x125 x3 shapeCasts_S35x125_S35x125 : FVec Ideal S35x125 .f32) (constant (F := Ideal) S3584x125 .f32 0x00000000#32)⟩,
            ⟨S3584x3, shapeCast S3584x3 x2 shapeCasts_S1x3584x3_S3584x3⟩]
          concatenates_S3584x125_S3584x3_S3584x128_d1)
        shapeCasts_S3584x128_S1x3584x128 := rfl

/-- Row `r`, column `c` of what one grid point of the feature kernel stores. -/
theorem pay_apply (x0 : Vec Ideal S1x1x3584 .i32) (x1 : Vec Ideal S1x3584 .i32) (x3 : Vec Ideal S35x125 .f32)
    (x2 : Vec Ideal S1x3584x3 .f32) (r : Fin 3584) (c : Fin 128)
    (h0 : (x0 (ix3 (0 : Fin 1) (0 : Fin 1) r) : BitVec 32).toNat < 21)
    (h1 : (x1 (ix2 (0 : Fin 1) r) : BitVec 32).toNat < 14) :
    k0_pay1 (F := Ideal) x0 x1 x3 x2 (ix3 (0 : Fin 1) r c) =
      if h : c.val < 125 then
        x3 (ix2 (⟨(x0 (ix3 (0 : Fin 1) (0 : Fin 1) r) : BitVec 32).toNat, by omega⟩ : Fin 35) (⟨c.val, h⟩ : Fin 125))
          + x3 (ix2 (⟨21 + (x1 (ix2 (0 : Fin 1) r) : BitVec 32).toNat, by omega⟩ : Fin 35) (⟨c.val, h⟩ : Fin 125))
      else x2 (ix3 (0 : Fin 1) r (⟨c.val - 125, by omega⟩ : Fin 3)) := by
  rw [pay_eq]
  refine (shapeCast_ab_1ab_apply _ shapeCasts_S3584x128_S1x3584x128 (0 : Fin 1) r c).trans ?_
  by_cases h : c.val < 125
  · rw [dif_pos h]
    refine (concat_left_apply _ _ r c h).trans ?_
    refine (matmul_feat_apply _ _ r (⟨c.val, h⟩ : Fin 125)).trans ?_
    rw [shapeCast_self]
    have hs := sum_two_hot (fun k : Fin 35 => x3 (ix2 k (⟨c.val, h⟩ : Fin 125)))
      (⟨(x0 (ix3 (0 : Fin 1) (0 : Fin 1) r) : BitVec 32).toNat, by omega⟩ : Fin 35)
      (⟨21 + (x1 (ix2 (0 : Fin 1) r) : BitVec 32).toNat, by omega⟩ : Fin 35)
      (fun e => by have := congrArg Fin.val e; simp only at this; omega)
    refine Eq.trans (Finset.sum_congr rfl fun k _ => ?_) hs
    rw [onehot_apply x0 x1 r k h0 h1]
  · rw [dif_neg h]
    refine (concat_right_apply _ _ r c h).trans ?_
    exact shapeCast_1ab_ab_apply x2 shapeCasts_S1x3584x3_S3584x3 r _

end Cert.AtomEnc.FeatBody

end
-- ==== Proof.FeatArray.lean ====
/-
  The feature array after the feature kernel's run.

  The kernel's grid has one point per batch `n`: it reads the batch's residue ids `[1, 1, 3584]`, the atom ids
  `[1, 3584]`, the batch's coordinates `[1, 3584, 3]` and the whole table `[35, 125]`, and writes the batch's block
  `[1, 3584, 128]` of the features. Entry `(r, c)` of that block, for `c < 125`, is the table's row "residue id"
  plus its row "21 + atom id" at column `c`: for `c < 62` the first is the residue table's entry and the second a
  zero, for `c ≥ 62` the first is a zero and the second the atom table's entry; for `c ≥ 125` it is coordinate
  `c − 125`. The four blocks tile the array, so the array ends as the specification's features.
-/
import proofs.«430467_j57887569215661_3_alg».proof.Proof.Gen.KernelIdeal.Frame
import proofs.«430467_j57887569215661_3_alg».proof.Proof.FeatBody
import proofs.«430467_j57887569215661_3_alg».proof.Proof.HostReads
import proofs.«430467_j57887569215661_3_alg».proof.Proof.Spec
import Idealize.ShloMosaic.Lib.Pipeline.Value

set_option maxRecDepth 16384

noncomputable section

namespace Cert.AtomEnc.FeatArray

open Idealize.ShloMosaic Idealize.ShloMosaic.TcCoe Idealize.ShloMosaic.ValueIdx Idealize.SL.Sem Cert.KernelIdeal Cert.KernelIdeal.Gen
open Cert.AtomEnc.HostReads (tableOf)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the four grid points: point `t` is batch `t`; the atom ids and the table are whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The residue id a grid point reads for row `r` is the array's at batch `t`. -/
theorem rid_blk (c : Dev nD) (t : Fin cfg0.N) (r : Fin 3584) :
    (iblk0 V c 0 t (ix3 (0 : Fin 1) (0 : Fin 1) r) : BitVec 32)
      = (V c main_v6 : S4x1x3584.Idx → BitVec 32) (ix3 (⟨t.val, t.isLt⟩ : Fin 4) (0 : Fin 1) r) := by
  obtain ⟨e0, e1, e2, -⟩ := idx_facts t
  show (V c main_v6 : S4x1x3584.Idx → BitVec 32) (((cfg0.win 0).blk t).view.emb (ix3 (0 : Fin 1) (0 : Fin 1) r)) = _
  refine congrArg _ (funext fun a => Fin.ext ?_)
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 3584 + 1 * r.val = r.val; omega

/-- The atom id a grid point reads for row `r` is the array's. -/
theorem aid_blk (c : Dev nD) (t : Fin cfg0.N) (r : Fin 3584) :
    (iblk0 V c 1 t (ix2 (0 : Fin 1) r) : BitVec 32) = (V c main_v7 : S1x3584.Idx → BitVec 32) (ix2 (0 : Fin 1) r) := by
  obtain ⟨-, -, -, e0, e1, -⟩ := idx_facts t
  show (V c main_v7 : S1x3584.Idx → BitVec 32) (((cfg0.win 1).blk t).view.emb (ix2 (0 : Fin 1) r)) = _
  refine congrArg _ (funext fun a => Fin.ext ?_)
  match a with
  | ⟨0, _⟩ => show win0_1.index t (0 : Fin 2) * 1 + 1 * 0 = 0; omega
  | ⟨1, _⟩ => show win0_1.index t (1 : Fin 2) * 3584 + 1 * r.val = r.val; omega

/-- The coordinate a grid point reads for row `r` is the array's at batch `t`. -/
theorem co_blk (c : Dev nD) (t : Fin cfg0.N) (r : Fin 3584) (d : Fin 3) :
    (iblk0 V c 2 t (ix3 (0 : Fin 1) r d) : EReal)
      = (V c main_v8 : S4x3584x3.Idx → EReal) (ix3 (⟨t.val, t.isLt⟩ : Fin 4) r d) := by
  obtain ⟨-, -, -, -, -, e0, e1, e2, -⟩ := idx_facts t
  show (V c main_v8 : S4x3584x3.Idx → EReal) (((cfg0.win 2).blk t).view.emb (ix3 (0 : Fin 1) r d)) = _
  refine congrArg _ (funext fun a => Fin.ext ?_)
  match a with
  | ⟨0, _⟩ => show win0_2.index t (0 : Fin 3) * 1 + 1 * 0 = t.val; omega
  | ⟨1, _⟩ => show win0_2.index t (1 : Fin 3) * 3584 + 1 * r.val = r.val; omega
  | ⟨2, _⟩ => show win0_2.index t (2 : Fin 3) * 3 + 1 * d.val = d.val; omega

/-- The table entry a grid point reads is the array's. -/
theorem tab_blk (c : Dev nD) (t : Fin cfg0.N) (k : Fin 35) (cc : Fin 125) :
    (iblk0 V c 3 t (ix2 k cc) : EReal) = (V c main_v14 : S35x125.Idx → EReal) (ix2 k cc) := by
  obtain ⟨-, -, -, -, -, -, -, -, e0, e1, -⟩ := idx_facts t
  show (V c main_v14 : S35x125.Idx → EReal) (((cfg0.win 3).blk t).view.emb (ix2 k cc)) = _
  refine congrArg _ (funext fun a => Fin.ext ?_)
  match a with
  | ⟨0, _⟩ => show win0_3.index t (0 : Fin 2) * 35 + 1 * k.val = k.val; omega
  | ⟨1, _⟩ => show win0_3.index t (1 : Fin 2) * 125 + 1 * cc.val = cc.val; omega

section Value

variable (aa : SAa.Idx → BitVec 32) (co : SCo.Idx → EReal) (res : SRes.Idx → EReal) (atom : SAtom.Idx → EReal)
variable (c : Dev nD)
variable (hrid : ∀ (n : Fin 4) (r : Fin 3584), (V c main_v6 : S4x1x3584.Idx → BitVec 32) (ix3 n (0 : Fin 1) r) = aa (ix2 n (⟨r.val / 14, by omega⟩ : Fin 256)))
variable (haid : ∀ r : Fin 3584, (V c main_v7 : S1x3584.Idx → BitVec 32) (ix2 (0 : Fin 1) r) = BitVec.ofNat 32 (r.val % 14))
variable (hco : (V c main_v8 : S4x3584x3.Idx → EReal) = co)
variable (htab : ∀ (k : Fin 35) (cc : Fin 125), (V c main_v14 : S35x125.Idx → EReal) (ix2 k cc) = tableOf res atom k cc)
variable (hr : ∀ i, (aa i).toNat < 21)

include hrid haid hco htab hr in
/-- Row `r`, column `cc` of what grid point `t` stores is the specification's feature of atom `r` of batch `t`. -/
theorem point_apply (t : Fin cfg0.N) (r : Fin 3584) (cc : Fin 128) :
    k0_pay1 (F := Ideal) (iblk0 V c 0 t) (iblk0 V c 1 t) (iblk0 V c 3 t) (iblk0 V c 2 t) (ix3 (0 : Fin 1) r cc)
      = featAt aa co res atom (⟨t.val, t.isLt⟩ : Fin 4) r cc := by
  have e0 : (iblk0 V c 0 t (ix3 (0 : Fin 1) (0 : Fin 1) r) : BitVec 32) = aa (ix2 (⟨t.val, t.isLt⟩ : Fin 4) (⟨r.val / 14, by omega⟩ : Fin 256)) :=
    (rid_blk V c t r).trans (hrid _ r)
  have e1 : (iblk0 V c 1 t (ix2 (0 : Fin 1) r) : BitVec 32) = BitVec.ofNat 32 (r.val % 14) := (aid_blk V c t r).trans (haid r)
  have ha := hr (ix2 (⟨t.val, t.isLt⟩ : Fin 4) (⟨r.val / 14, by omega⟩ : Fin 256))
  have h14 : r.val % 14 < 14 := Nat.mod_lt _ (by omega)
  have n1 : (BitVec.ofNat 32 (r.val % 14)).toNat = r.val % 14 := by
    rw [BitVec.toNat_ofNat]; exact Nat.mod_eq_of_lt (by omega)
  refine (FeatBody.pay_apply (iblk0 V c 0 t) (iblk0 V c 1 t) (iblk0 V c 3 t) (iblk0 V c 2 t) r cc (by rw [e0]; exact ha) (by rw [e1, n1]; exact h14)).trans ?_
  unfold featAt
  by_cases h125 : cc.val < 125
  · rw [dif_pos h125, tab_blk, tab_blk, htab, htab]
    unfold tableOf
    have k0 : (iblk0 V c 0 t (ix3 (0 : Fin 1) (0 : Fin 1) r) : BitVec 32).toNat < 21 := by rw [e0]; exact ha
    have k1 : ¬ (21 + (iblk0 V c 1 t (ix2 (0 : Fin 1) r) : BitVec 32).toNat < 21) := by omega
    rw [dif_pos k0, dif_neg k1]
    by_cases h62 : cc.val < 62
    · rw [dif_pos h62, dif_pos h62, dif_pos h62, add_zero]
      refine congrArg res ?_
      refine congrArg (fun a => ix2 a (⟨cc.val, h62⟩ : Fin 62)) (Fin.ext ?_)
      show (iblk0 V c 0 t (ix3 (0 : Fin 1) (0 : Fin 1) r) : BitVec 32).toNat = min _ 20
      rw [e0]; omega
    · rw [dif_neg h62, dif_neg h62, dif_neg h62, dif_pos h125, zero_add]
      refine congrArg atom ?_
      refine congrArg (fun a => ix2 a (⟨cc.val - 62, by omega⟩ : Fin 63)) (Fin.ext ?_)
      show 21 + (iblk0 V c 1 t (ix2 (0 : Fin 1) r) : BitVec 32).toNat - 21 = r.val % 14
      rw [e1, n1]; omega
  · have h62 : ¬ cc.val < 62 := by omega
    rw [dif_neg h125, dif_neg h62, dif_neg h125, co_blk, hco]

include hrid haid hco htab hr in
/-- What grid point `t` writes back is block `t` of the specification's features. -/
theorem flushed_eq (t : Fin cfg0.N) :
    (dat0 V c).flushed 4 t = ((cfg0.win 4).blk t).view.read (Elt Ideal) (featSpec aa co res atom) := by
  show (cfg0.win 4).cut (grid0.coords t) ((dat0 V c).after 4 t) = _
  rw [after0_4]
  unfold out0_4
  rw [View.canon_unit_zero hz3]
  simp only [View.ld_unit_zero (S := S1x1x3584) hz3, View.ld_unit_zero (S := S1x3584) hz2, View.ld_unit_zero (S := S35x125) hz2, View.ld_unit_zero (S := S1x3584x3) hz3]
  obtain ⟨-, -, -, -, -, -, -, -, -, -, e0, e1, e2⟩ := idx_facts t
  have key : ∀ y : S1x3584x128.Idx,
      k0_pay1 (F := Ideal) (iblk0 V c 0 t) (iblk0 V c 1 t) (iblk0 V c 3 t) (iblk0 V c 2 t) y
        = featSpec aa co res atom (((cfg0.win 4).blk t).view.emb y) := by
    intro y
    obtain ⟨a, r, cc, rfl⟩ : ∃ (a : Fin 1) (r : Fin 3584) (cc : Fin 128), y = ix3 a r cc := ⟨y 0, y 1, y 2, eq_ix3 y⟩
    obtain rfl : a = 0 := Subsingleton.elim _ _
    rw [point_apply V aa co res atom c hrid haid hco htab hr t r cc]
    unfold featSpec
    have i0 : (((cfg0.win 4).blk t).view.emb (ix3 (0 : Fin 1) r cc) : S4x3584x128.Idx) = ix3 (⟨t.val, t.isLt⟩ : Fin 4) r cc := by
      funext a; apply Fin.ext
      match a with
      | ⟨0, _⟩ => show win0_4.index t (0 : Fin 3) * 1 + 1 * 0 = t.val; omega
      | ⟨1, _⟩ => show win0_4.index t (1 : Fin 3) * 3584 + 1 * r.val = r.val; omega
      | ⟨2, _⟩ => show win0_4.index t (2 : Fin 3) * 128 + 1 * cc.val = cc.val; omega
    rw [i0]
  funext j
  exact key j

/-- Every index of the feature array is in some grid point's block: batch `n` is point `n`. -/
theorem cover (i : S4x3584x128.Idx) :
    ∃ t : Fin cfg0.N, (cfg0.win 4).flush t = true ∧ i ∈ ((cfg0.win 4).blk t).view.set := by
  have hi0 : (i 0).val < 4 := (i 0).isLt
  have hi1 : (i 1).val < 3584 := (i 1).isLt
  have hi2 : (i 2).val < 128 := (i 2).isLt
  refine ⟨⟨(i 0).val, hi0⟩, flush0_4 _, ?_⟩
  obtain ⟨-, -, -, -, -, -, -, -, -, -, e0, e1, e2⟩ := idx_facts ⟨(i 0).val, hi0⟩
  show i ∈ ((View.whole main_v15).slice (win0_4.rect ⟨(i 0).val, hi0⟩)).set
  rw [View.set_slice_whole, Rect.mem_set_unit]
  intro a
  match a with
  | ⟨0, _⟩ =>
    have e0' : win0_4.index ⟨(i 0).val, hi0⟩ (0 : Fin 3) = (i 0).val := e0
    show win0_4.index ⟨(i 0).val, hi0⟩ (0 : Fin 3) * 1 ≤ (i 0).val ∧ (i 0).val < win0_4.index ⟨(i 0).val, hi0⟩ (0 : Fin 3) * 1 + 1
    omega
  | ⟨1, _⟩ => show win0_4.index ⟨(i 0).val, hi0⟩ (1 : Fin 3) * 3584 ≤ (i 1).val ∧ (i 1).val < win0_4.index ⟨(i 0).val, hi0⟩ (1 : Fin 3) * 3584 + 3584; omega
  | ⟨2, _⟩ => show win0_4.index ⟨(i 0).val, hi0⟩ (2 : Fin 3) * 128 ≤ (i 2).val ∧ (i 2).val < win0_4.index ⟨(i 0).val, hi0⟩ (2 : Fin 3) * 128 + 128; omega

include hrid haid hco htab hr in
/-- THE FEATURE ARRAY after the run is the specification's. -/
theorem final : (dat0 V c).arrAt 4 cfg0.N = featSpec aa co res atom :=
  (dat0 V c).arrAt_eq_of_cover 4 (featSpec aa co res atom)
    (fun t _ => flushed_eq V aa co res atom c hrid haid hco htab hr t) cover

end Value

end Cert.AtomEnc.FeatArray

end
-- ==== Proof.EdgeBody.lean ====
/-
  One grid point of the edge kernel, read at an index.
-/
import proofs.«430467_j57887569215661_3_alg».proof.Proof.Gen.KernelIdeal.Frame
import proofs.«430467_j57887569215661_3_alg».proof.Proof.Spec
import Idealize.ShloMosaic.Lib.ValueIdx
import Idealize.ShloMosaic.Lib.ValueLayout
import Idealize.ShloMosaic.Lib.Pipeline.Value

noncomputable section

namespace Cert.AtomEnc.EdgeBody

open Idealize.ShloMosaic Idealize.ShloMosaic.ValueIdx Cert.KernelIdeal Cert.KernelIdeal.Gen

/-! ## The value one chunk stores

The body handles the 3584 row atoms in 14 chunks of 256. For a chunk `q : [1, 256, 3]` (atom, coordinate) and the
column atoms `k : [1, 3, 896]` (coordinate, atom) it stores, at row `a` and column `b`, the bit of
"`(qx − kx)² + (qy − ky)² + (qz − kz)² < 100`" widened to 32 bits. -/

/-- The word a chunk `q` of row atoms stores at row `a`, column `b`, against the column atoms `k`. -/
def chunkBit (q : Vec Ideal S1x256x3 .f32) (k : Vec Ideal S1x3x896 .f32) (a : Fin 256) (b : Fin 896) : BitVec 32 :=
  (Ideal.cmp .olt
    ((q (ix3 (0 : Fin 1) a (0 : Fin 3)) - k (ix3 (0 : Fin 1) (0 : Fin 3) b)) * (q (ix3 (0 : Fin 1) a (0 : Fin 3)) - k (ix3 (0 : Fin 1) (0 : Fin 3) b))
      + (q (ix3 (0 : Fin 1) a (1 : Fin 3)) - k (ix3 (0 : Fin 1) (1 : Fin 3) b)) * (q (ix3 (0 : Fin 1) a (1 : Fin 3)) - k (ix3 (0 : Fin 1) (1 : Fin 3) b))
      + (q (ix3 (0 : Fin 1) a (2 : Fin 3)) - k (ix3 (0 : Fin 1) (2 : Fin 3) b)) * (q (ix3 (0 : Fin 1) a (2 : Fin 3)) - k (ix3 (0 : Fin 1) (2 : Fin 3) b)))
    (Ideal.ofBits .f32 0x42C80000#32)).setWidth 32

/-! ## The layout operations of the body, read at an index -/

/-- A column `[m, 1]` broadcast along a second axis reads, at `(a, b)`, the column at `a`. -/
theorem broadcastTo_a1_ab_apply {α : Type} {m n : ℕ} (v : (⟨2, ![m, 1]⟩ : Shape).Idx → α)
    (h : (⟨2, ![m, 1]⟩ : Shape).Broadcasts ⟨2, ![m, n]⟩) (a : Fin m) (b : Fin n) :
    broadcastTo ⟨2, ![m, n]⟩ v h (ix2 a b) = v (ix2 a (0 : Fin 1)) := by
  refine broadcastTo_apply v h (ix2 a b) (ix2 a (0 : Fin 1)) fun ax => ?_
  match ax with
  | ⟨0, _⟩ =>
    show a.val = if m = 1 then 0 else a.val
    split
    · have := a.isLt; omega
    · rfl
  | ⟨1, _⟩ => rfl

/-- Coordinate `d` of the chunk's atoms, as a column broadcast over the 896 column atoms, reads at `(a, b)`
    coordinate `d` of row atom `a`. -/
theorem qcol_apply (q : FVec Ideal S1x256x3 .f32) (o : ℕ) (h1 : S1x256x3.ShapeCasts S256x3)
    (h2 : S256x3.Slices ![0, o] S256x1) (h3 : S256x1.Broadcasts S256x896) (d : Fin 3) (hd : d.val = o)
    (a : Fin 256) (b : Fin 896) :
    broadcastTo S256x896 (extractStridedSlice S256x1 ![0, o] (shapeCast S256x3 q h1) h2) h3 (ix2 a b)
      = q (ix3 (0 : Fin 1) a d) :=
  (broadcastTo_a1_ab_apply _ h3 a b).trans
    ((slice2_axis1_apply o _ h2 a (0 : Fin 1) d (by rw [hd]; rfl)).trans (shapeCast_1ab_ab_apply q h1 a d))

/-- Coordinate `d` of the column atoms, as a row broadcast over the 256 row atoms, reads at `(a, b)`
    coordinate `d` of column atom `b`. -/
theorem krow_apply (k : FVec Ideal S1x3x896 .f32) (o : ℕ) (h1 : S1x3x896.ShapeCasts S3x896)
    (h2 : S3x896.Slices ![o, 0] S1x896) (h3 : S1x896.Broadcasts S256x896) (d : Fin 3) (hd : d.val = o)
    (a : Fin 256) (b : Fin 896) :
    broadcastTo S256x896 (extractStridedSlice S1x896 ![o, 0] (shapeCast S3x896 k h1) h2) h3 (ix2 a b)
      = k (ix3 (0 : Fin 1) d b) :=
  (broadcastTo_1b_ab_apply _ h3 a b).trans
    ((slice2_axis0_apply o _ h2 (0 : Fin 1) b d (by rw [hd]; rfl)).trans (shapeCast_1ab_ab_apply k h1 d b))

theorem qcol0 (q : FVec Ideal S1x256x3 .f32) (h1 : S1x256x3.ShapeCasts S256x3) (h2 : S256x3.Slices ![0, 0] S256x1)
    (h3 : S256x1.Broadcasts S256x896) (a : Fin 256) (b : Fin 896) :
    broadcastTo S256x896 (extractStridedSlice S256x1 ![0, 0] (shapeCast S256x3 q h1) h2) h3 (ix2 a b)
      = q (ix3 (0 : Fin 1) a (0 : Fin 3)) := qcol_apply q 0 h1 h2 h3 0 rfl a b
theorem qcol1 (q : FVec Ideal S1x256x3 .f32) (h1 : S1x256x3.ShapeCasts S256x3) (h2 : S256x3.Slices ![0, 1] S256x1)
    (h3 : S256x1.Broadcasts S256x896) (a : Fin 256) (b : Fin 896) :
    broadcastTo S256x896 (extractStridedSlice S256x1 ![0, 1] (shapeCast S256x3 q h1) h2) h3 (ix2 a b)
      = q (ix3 (0 : Fin 1) a (1 : Fin 3)) := qcol_apply q 1 h1 h2 h3 1 rfl a b
theorem qcol2 (q : FVec Ideal S1x256x3 .f32) (h1 : S1x256x3.ShapeCasts S256x3) (h2 : S256x3.Slices ![0, 2] S256x1)
    (h3 : S256x1.Broadcasts S256x896) (a : Fin 256) (b : Fin 896) :
    broadcastTo S256x896 (extractStridedSlice S256x1 ![0, 2] (shapeCast S256x3 q h1) h2) h3 (ix2 a b)
      = q (ix3 (0 : Fin 1) a (2 : Fin 3)) := qcol_apply q 2 h1 h2 h3 2 rfl a b
theorem krow0 (k : FVec Ideal S1x3x896 .f32) (h1 : S1x3x896.ShapeCasts S3x896) (h2 : S3x896.Slices ![0, 0] S1x896)
    (h3 : S1x896.Broadcasts S256x896) (a : Fin 256) (b : Fin 896) :
    broadcastTo S256x896 (extractStridedSlice S1x896 ![0, 0] (shapeCast S3x896 k h1) h2) h3 (ix2 a b)
      = k (ix3 (0 : Fin 1) (0 : Fin 3) b) := krow_apply k 0 h1 h2 h3 0 rfl a b
theorem krow1 (k : FVec Ideal S1x3x896 .f32) (h1 : S1x3x896.ShapeCasts S3x896) (h2 : S3x896.Slices ![1, 0] S1x896)
    (h3 : S1x896.Broadcasts S256x896) (a : Fin 256) (b : Fin 896) :
    broadcastTo S256x896 (extractStridedSlice S1x896 ![1, 0] (shapeCast S3x896 k h1) h2) h3 (ix2 a b)
      = k (ix3 (0 : Fin 1) (1 : Fin 3) b) := krow_apply k 1 h1 h2 h3 1 rfl a b
theorem krow2 (k : FVec Ideal S1x3x896 .f32) (h1 : S1x3x896.ShapeCasts S3x896) (h2 : S3x896.Slices ![2, 0] S1x896)
    (h3 : S1x896.Broadcasts S256x896) (a : Fin 256) (b : Fin 896) :
    broadcastTo S256x896 (extractStridedSlice S1x896 ![2, 0] (shapeCast S3x896 k h1) h2) h3 (ix2 a b)
      = k (ix3 (0 : Fin 1) (2 : Fin 3) b) := krow_apply k 2 h1 h2 h3 2 rfl a b

/-! ## The 14 chunks' payloads, read at an index

The payloads group the operations differently from chunk to chunk (some take the chunk's coordinate columns, their
differences or their squares as arguments), but each is the same computation: the chunk's three coordinate columns and
the column atoms' three coordinate rows, broadcast to `[256, 896]`, subtracted, squared, summed `(x² + y²) + z²`,
compared with 100, widened, and given a leading unit axis. Each lemma unfolds its payload and reads every operation at
the index. -/

/-- Closes `payload (0, a, b) = chunkBit q k a b`: unfolds the named payloads (and the three rows of the column atoms),
    reads the elementwise operations and the layout operations at the index, and compares. -/
macro "chunk_read" "[" ls:Lean.Parser.Tactic.simpLemma,* "]" : tactic =>
  `(tactic| (simp only [$ls,*, k1_pay5, k1_pay4, k1_pay3, k1_pay2, shapeCast_ab_1ab_apply, extui_apply, cmpf_apply,
      addf_apply, mulf_apply, subf_apply, broadcast_apply, qcol0, qcol1, qcol2, krow0, krow1, krow2]; rfl))

/-- Chunk 0 (row atoms `0 … 255`). -/
theorem chunk0_apply (q : Vec Ideal S1x256x3 .f32) (k : Vec Ideal S1x3x896 .f32) (a : Fin 256) (b : Fin 896) :
    k1_pay6 (F := Ideal) k q (ix3 (0 : Fin 1) a b) = chunkBit q k a b := by
  chunk_read [k1_pay6]

/-- Chunk 1 (row atoms `256 … 511`). -/
theorem chunk1_apply (q : Vec Ideal S1x256x3 .f32) (k : Vec Ideal S1x3x896 .f32) (a : Fin 256) (b : Fin 896) :
    k1_pay10 (F := Ideal) (k1_pay3 k) (k1_pay4 k) (k1_pay5 k) (k1_pay7 q) (k1_pay8 q) (k1_pay9 q) (ix3 (0 : Fin 1) a b) = chunkBit q k a b := by
  chunk_read [k1_pay10, k1_pay9, k1_pay8, k1_pay7]

/-- Chunk 2 (row atoms `512 … 767`). -/
theorem chunk2_apply (q : Vec Ideal S1x256x3 .f32) (k : Vec Ideal S1x3x896 .f32) (a : Fin 256) (b : Fin 896) :
    k1_pay12 (k1_pay11 (F := Ideal) (k1_pay3 k) (k1_pay4 k) (k1_pay5 k) q) (ix3 (0 : Fin 1) a b) = chunkBit q k a b := by
  chunk_read [k1_pay12, k1_pay11]

/-- Chunk 3 (row atoms `768 … 1023`). -/
theorem chunk3_apply (q : Vec Ideal S1x256x3 .f32) (k : Vec Ideal S1x3x896 .f32) (a : Fin 256) (b : Fin 896) :
    k1_pay13 (F := Ideal) (k1_pay3 k) (k1_pay4 k) (k1_pay5 k) q (ix3 (0 : Fin 1) a b) = chunkBit q k a b := by
  chunk_read [k1_pay13]

/-- Chunk 4 (row atoms `1024 … 1279`). -/
theorem chunk4_apply (q : Vec Ideal S1x256x3 .f32) (k : Vec Ideal S1x3x896 .f32) (a : Fin 256) (b : Fin 896) :
    k1_pay19 (F := Ideal) (k1_pay4 k) (k1_pay5 k) (k1_pay15 q) (k1_pay16 q) (k1_pay17 q) (k1_pay18 (k1_pay3 k)) (ix3 (0 : Fin 1) a b) = chunkBit q k a b := by
  chunk_read [k1_pay19, k1_pay18, k1_pay17, k1_pay16, k1_pay15, k1_pay14]

/-- Chunk 5 (row atoms `1280 … 1535`). -/
theorem chunk5_apply (q : Vec Ideal S1x256x3 .f32) (k : Vec Ideal S1x3x896 .f32) (a : Fin 256) (b : Fin 896) :
    k1_pay22 (k1_pay20 (F := Ideal) (k1_pay3 k) (k1_pay4 k) (k1_pay5 k) q) (ix3 (0 : Fin 1) a b) = chunkBit q k a b := by
  chunk_read [k1_pay22, k1_pay20]

/-- Chunk 6 (row atoms `1536 … 1791`). -/
theorem chunk6_apply (q : Vec Ideal S1x256x3 .f32) (k : Vec Ideal S1x3x896 .f32) (a : Fin 256) (b : Fin 896) :
    k1_pay23 (F := Ideal) (k1_pay3 k) (k1_pay4 k) (k1_pay5 k) q (ix3 (0 : Fin 1) a b) = chunkBit q k a b := by
  chunk_read [k1_pay23]

/-- Chunk 7 (row atoms `1792 … 2047`). -/
theorem chunk7_apply (q : Vec Ideal S1x256x3 .f32) (k : Vec Ideal S1x3x896 .f32) (a : Fin 256) (b : Fin 896) :
    k1_pay29 (F := Ideal) (k1_pay5 k) (k1_pay25 q) (k1_pay26 (k1_pay3 k) q) (k1_pay27 q) (k1_pay28 (k1_pay4 k)) (ix3 (0 : Fin 1) a b) = chunkBit q k a b := by
  chunk_read [k1_pay29, k1_pay28, k1_pay27, k1_pay26, k1_pay25, k1_pay24]

/-- Chunk 8 (row atoms `2048 … 2303`). -/
theorem chunk8_apply (q : Vec Ideal S1x256x3 .f32) (k : Vec Ideal S1x3x896 .f32) (a : Fin 256) (b : Fin 896) :
    k1_pay30 (F := Ideal) (k1_pay3 k) (k1_pay4 k) (k1_pay5 k) q (ix3 (0 : Fin 1) a b) = chunkBit q k a b := by
  chunk_read [k1_pay30]

/-- Chunk 9 (row atoms `2304 … 2559`). -/
theorem chunk9_apply (q : Vec Ideal S1x256x3 .f32) (k : Vec Ideal S1x3x896 .f32) (a : Fin 256) (b : Fin 896) :
    k1_pay31 (F := Ideal) (k1_pay3 k) (k1_pay4 k) (k1_pay5 k) q (ix3 (0 : Fin 1) a b) = chunkBit q k a b := by
  chunk_read [k1_pay31]

/-- Chunk 10 (row atoms `2560 … 2815`). -/
theorem chunk10_apply (q : Vec Ideal S1x256x3 .f32) (k : Vec Ideal S1x3x896 .f32) (a : Fin 256) (b : Fin 896) :
    k1_pay37 (F := Ideal) (k1_pay33 (k1_pay3 k) q) (k1_pay34 (k1_pay4 k) q) (k1_pay35 q) (k1_pay36 (k1_pay5 k)) (ix3 (0 : Fin 1) a b) = chunkBit q k a b := by
  chunk_read [k1_pay37, k1_pay36, k1_pay35, k1_pay34, k1_pay33, k1_pay32]

/-- Chunk 11 (row atoms `2816 … 3071`). -/
theorem chunk11_apply (q : Vec Ideal S1x256x3 .f32) (k : Vec Ideal S1x3x896 .f32) (a : Fin 256) (b : Fin 896) :
    k1_pay38 (F := Ideal) (k1_pay3 k) (k1_pay4 k) (k1_pay5 k) q (ix3 (0 : Fin 1) a b) = chunkBit q k a b := by
  chunk_read [k1_pay38]

/-- Chunk 12 (row atoms `3072 … 3327`). -/
theorem chunk12_apply (q : Vec Ideal S1x256x3 .f32) (k : Vec Ideal S1x3x896 .f32) (a : Fin 256) (b : Fin 896) :
    k1_pay39 (F := Ideal) (k1_pay3 k) (k1_pay4 k) (k1_pay5 k) q (ix3 (0 : Fin 1) a b) = chunkBit q k a b := by
  chunk_read [k1_pay39]

/-- Chunk 13 (row atoms `3328 … 3583`). -/
theorem chunk13_apply (q : Vec Ideal S1x256x3 .f32) (k : Vec Ideal S1x3x896 .f32) (a : Fin 256) (b : Fin 896) :
    k1_pay1 (F := Ideal) (k1_pay41 (k1_pay5 k) q) (k1_pay42 (k1_pay3 k) q) (k1_pay43 (k1_pay4 k) q) (ix3 (0 : Fin 1) a b) = chunkBit q k a b := by
  chunk_read [k1_pay1, k1_pay43, k1_pay42, k1_pay41, k1_pay40]

/-! ## One stored chunk against the block -/

/-- The block's value as a function of its index: the widened bit of "row atom `y 1` and column atom `y 2` are
    closer than 10". -/
def edgeG (x0 : Vec Ideal S1x3584x3 .f32) (x1 : Vec Ideal S1x3x896 .f32) : S1x3584x896.Idx → BitVec 32 :=
  fun y => (Ideal.cmp .olt (blkDist2 x0 x1 (y 1) (y 2)) (Ideal.ofBits .f32 0x42C80000#32)).setWidth 32

theorem edgeG_ix3 (x0 : Vec Ideal S1x3584x3 .f32) (x1 : Vec Ideal S1x3x896 .f32) (r : Fin 3584) (j : Fin 896) :
    edgeG x0 x1 (ix3 (0 : Fin 1) r j)
      = (Ideal.cmp .olt (blkDist2 x0 x1 r j) (Ideal.ofBits .f32 0x42C80000#32)).setWidth 32 := rfl

/-- 256 rows from row `o` lie inside the block of row atoms … -/
theorem inb_q (o : ℕ) (ho : o + 256 ≤ 3584) :
    ∀ a, (![0, o, 0] : Fin 3 → ℕ) a + S1x256x3.size a ≤ S1x3584x3.size a := fun a => by
  match a with
  | ⟨0, _⟩ => exact Nat.le_refl 1
  | ⟨1, _⟩ => exact ho
  | ⟨2, _⟩ => exact Nat.le_refl 3

/-- … and inside the output block. -/
theorem inb_out (o : ℕ) (ho : o + 256 ≤ 3584) :
    ∀ a, (![0, o, 0] : Fin 3 → ℕ) a + S1x256x896.size a ≤ S1x3584x896.size a := fun a => by
  match a with
  | ⟨0, _⟩ => exact Nat.le_refl 1
  | ⟨1, _⟩ => exact ho
  | ⟨2, _⟩ => exact Nat.le_refl 896

/-- Local index `(0, a, b)` of the 256 output rows from row `o` is the block's index `(0, o + a, b)`. -/
theorem emb_out (o : ℕ) (inb : ∀ a, (![0, o, 0] : Fin 3 → ℕ) a + S1x256x896.size a ≤ S1x3584x896.size a)
    (a : Fin 256) (b : Fin 896) (h : o + a.val < 3584) :
    (Rect.unit (s := S1x3584x896) ![0, o, 0] S1x256x896.size inb).emb (ix3 (0 : Fin 1) a b)
      = ix3 (0 : Fin 1) (⟨o + a.val, h⟩ : Fin 3584) b := by
  funext ax
  refine Fin.ext ?_
  match ax with
  | ⟨0, _⟩ => rfl
  | ⟨1, _⟩ => show o + 1 * a.val = o + a.val; omega
  | ⟨2, _⟩ => show 0 + 1 * b.val = b.val; omega

/-- The chunk of row atoms loaded from row `o`, at local `(0, a, d)`, is the block of row atoms at `(0, o + a, d)`. -/
theorem ld_rows (x0 : Vec Ideal S1x3584x3 .f32) (o : ℕ)
    (inb : ∀ a, (![0, o, 0] : Fin 3 → ℕ) a + S1x256x3.size a ≤ S1x3584x3.size a)
    (a : Fin 256) (d : Fin 3) (h : o + a.val < 3584) :
    View.ld x0 (Rect.unit (s := S1x3584x3) ![0, o, 0] S1x256x3.size inb) (ix3 (0 : Fin 1) a d)
      = x0 (ix3 (0 : Fin 1) (⟨o + a.val, h⟩ : Fin 3584) d) := by
  refine congrArg x0 (funext fun ax => Fin.ext ?_)
  match ax with
  | ⟨0, _⟩ => rfl
  | ⟨1, _⟩ => show o + 1 * a.val = o + a.val; omega
  | ⟨2, _⟩ => show 0 + 1 * d.val = d.val; omega

/-- A store of 256 rows from row `o` whose payload is the chunk's bits, the chunk being the row atoms loaded from
    row `o`, agrees with the block's function on its rectangle. -/
theorem piece_ok (x0 : Vec Ideal S1x3584x3 .f32) (x1 : Vec Ideal S1x3x896 .f32) (o : ℕ) (ho : o + 256 ≤ 3584)
    (w : S1x256x896.Idx → BitVec 32)
    (hw : ∀ (a : Fin 256) (b : Fin 896), w (ix3 (0 : Fin 1) a b)
      = chunkBit (View.ld x0 (Rect.unit (s := S1x3584x3) ![0, o, 0] S1x256x3.size (inb_q o ho))) x1 a b)
    (x : (Rect.unit (s := S1x3584x896) ![0, o, 0] S1x256x896.size (inb_out o ho)).shape.Idx) :
    w x = edgeG x0 x1 ((Rect.unit (s := S1x3584x896) ![0, o, 0] S1x256x896.size (inb_out o ho)).emb x) := by
  obtain ⟨u, a, b, rfl⟩ : ∃ (u : Fin 1) (a : Fin 256) (b : Fin 896), x = ix3 u a b := ⟨_, _, _, eq_ix3 x⟩
  obtain rfl : u = 0 := Subsingleton.elim _ _
  have hoa : o + a.val < 3584 := by omega
  rw [hw a b, emb_out o (inb_out o ho) a b hoa, edgeG_ix3]
  unfold chunkBit blkDist2
  rw [ld_rows x0 o (inb_q o ho) a 0 hoa, ld_rows x0 o (inb_q o ho) a 1 hoa, ld_rows x0 o (inb_q o ho) a 2 hoa]

/-! ## The block -/

/-- Row `r`, column `j` of what one grid point of the edge kernel leaves in its output block. -/
theorem out_apply (c : Dev nD) (i : grid1.Coords)
    (a2 : Memref sig .tc .vmem S1x3584x3 .f32) (h2 : a2.IsWhole) (a3 : Memref sig .tc .vmem S1x3x896 .f32) (h3 : a3.IsWhole)
    (a4 : Memref sig .tc .vmem S1x3584x896 .i32) (h4 : a4.IsWhole)
    (x0 : Vec Ideal S1x3584x3 .f32) (x1 : Vec Ideal S1x3x896 .f32) (r : Fin 3584) (j : Fin 896) :
    (out1_A_2 (F := Ideal) c i a2 h2 a3 h3 a4 h4 x0 x1 (ix3 (0 : Fin 1) r j) : BitVec 32)
      = (Ideal.cmp .olt (blkDist2 x0 x1 r j) (Ideal.ofBits .f32 0x42C80000#32)).setWidth 32 := by
  -- the 14 stores cover the block, so what is read back is the pieces' canonical contents;
  unfold out1_A_2
  rw [View.read_writes_eq_canon _ _ _ (cover1_A_2 (F := Ideal) c i a2 h2 a3 h3 a4 h4 x0 x1)]
  -- every piece is a rectangle of ONE function of the block's index, so the contents are that function.
  refine (View.canon_apply_of_pieces (edgeG x0 x1) _ ?_ (ix3 (0 : Fin 1) r j)
    (cover1_A_2 (F := Ideal) c i a2 h2 a3 h3 a4 h4 x0 x1 _)).trans (edgeG_ix3 x0 x1 r j)
  have hz : (![0, 0, 0] : Fin 3 → ℕ) = fun _ => 0 := by
    funext ax; match ax with | ⟨0, _⟩ => rfl | ⟨1, _⟩ => rfl | ⟨2, _⟩ => rfl
  -- the pieces: 256 rows each from rows 3328, 3072, …, 0, over the row atoms loaded from the same row and the
  -- column atoms loaded whole
  unfold kernelRun1_A
  dsimp only
  sl_unfold_words
  simp only [View.readAt_eq_ld, h2.read_unread, h3.read_unread, View.ld_unit_zero (S := S1x3x896) hz]
  refine List.forall_mem_cons.2 ⟨fun x => piece_ok x0 x1 3328 (by omega) _ (chunk13_apply _ _) x, ?_⟩
  refine List.forall_mem_cons.2 ⟨fun x => piece_ok x0 x1 3072 (by omega) _ (chunk12_apply _ _) x, ?_⟩
  refine List.forall_mem_cons.2 ⟨fun x => piece_ok x0 x1 2816 (by omega) _ (chunk11_apply _ _) x, ?_⟩
  refine List.forall_mem_cons.2 ⟨fun x => piece_ok x0 x1 2560 (by omega) _ (chunk10_apply _ _) x, ?_⟩
  refine List.forall_mem_cons.2 ⟨fun x => piece_ok x0 x1 2304 (by omega) _ (chunk9_apply _ _) x, ?_⟩
  refine List.forall_mem_cons.2 ⟨fun x => piece_ok x0 x1 2048 (by omega) _ (chunk8_apply _ _) x, ?_⟩
  refine List.forall_mem_cons.2 ⟨fun x => piece_ok x0 x1 1792 (by omega) _ (chunk7_apply _ _) x, ?_⟩
  refine List.forall_mem_cons.2 ⟨fun x => piece_ok x0 x1 1536 (by omega) _ (chunk6_apply _ _) x, ?_⟩
  refine List.forall_mem_cons.2 ⟨fun x => piece_ok x0 x1 1280 (by omega) _ (chunk5_apply _ _) x, ?_⟩
  refine List.forall_mem_cons.2 ⟨fun x => piece_ok x0 x1 1024 (by omega) _ (chunk4_apply _ _) x, ?_⟩
  refine List.forall_mem_cons.2 ⟨fun x => piece_ok x0 x1 768 (by omega) _ (chunk3_apply _ _) x, ?_⟩
  refine List.forall_mem_cons.2 ⟨fun x => piece_ok x0 x1 512 (by omega) _ (chunk2_apply _ _) x, ?_⟩
  refine List.forall_mem_cons.2 ⟨fun x => piece_ok x0 x1 256 (by omega) _ (chunk1_apply _ _) x, ?_⟩
  refine List.forall_mem_cons.2 ⟨fun x => piece_ok x0 x1 0 (by omega) _ (chunk0_apply _ _) x, ?_⟩
  exact fun p hp => absurd hp List.not_mem_nil

end Cert.AtomEnc.EdgeBody

end
-- ==== Proof.EdgeArray.lean ====
/-
  The edge kernel's output array after its run.

  The kernel's grid is `4 × 4`: point `t` is batch `t / 4` and column tile `t % 4` (896 columns). It reads the
  batch's coordinates `[1, 3584, 3]` (atom, coordinate) for the rows and a `[1, 3, 896]` block of the transposed
  coordinates (coordinate, atom) for the tile's columns, and writes the block `[1, 3584, 896]` of 32-bit words
  whose entry `(r, j)` is the bit "the squared distance of atoms `r` and `896 (t % 4) + j` is below 100". The
  sixteen blocks tile the array `[4, 3584, 3584]`.
-/
import proofs.«430467_j57887569215661_3_alg».proof.Proof.Gen.KernelIdeal.Frame
import proofs.«430467_j57887569215661_3_alg».proof.Proof.EdgeBody
import proofs.«430467_j57887569215661_3_alg».proof.Proof.Spec
import Idealize.ShloMosaic.Lib.Pipeline.Value

set_option maxRecDepth 16384

noncomputable section

namespace Cert.AtomEnc.EdgeArray

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The edge mask as 32-bit words: the comparison's bit, widened. -/
def edge32 (co : SCo.Idx → EReal) : S4x3584x3584.Idx → BitVec 32 := fun y => (edgeSpec co y).setWidth 32

/-- The index maps over the sixteen grid points. -/
theorem idx_facts : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = 0 ∧ win1_1.index t (2 : Fin 3) = t.val % 4
    ∧ win1_2.index t (0 : Fin 3) = t.val / 4 ∧ win1_2.index t (1 : Fin 3) = 0 ∧ win1_2.index t (2 : Fin 3) = t.val % 4 :=
  (by decide +kernel : ∀ t : Fin grid1.N, _)

theorem t_bounds (t : Fin cfg1.N) : t.val < 16 := t.isLt

/-- The row coordinate a grid point reads is the array's at batch `t / 4`. -/
theorem q_blk (c : Dev nD) (t : Fin cfg1.N) (r : Fin 3584) (d : Fin 3) :
    (iblk1 V c 0 t (ix3 (0 : Fin 1) r d) : EReal)
      = (V c main_v8 : S4x3584x3.Idx → EReal) (ix3 (⟨t.val / 4, by have := t_bounds t; omega⟩ : Fin 4) r d) := by
  obtain ⟨e0, e1, e2, -⟩ := idx_facts t
  show (V c main_v8 : S4x3584x3.Idx → EReal) (((cfg1.win 0).blk t).view.emb (ix3 (0 : Fin 1) r d)) = _
  refine congrArg _ (funext fun a => Fin.ext ?_)
  match a with
  | ⟨0, _⟩ => show win1_0.index t (0 : Fin 3) * 1 + 1 * 0 = t.val / 4; omega
  | ⟨1, _⟩ => show win1_0.index t (1 : Fin 3) * 3584 + 1 * r.val = r.val; omega
  | ⟨2, _⟩ => show win1_0.index t (2 : Fin 3) * 3 + 1 * d.val = d.val; omega

/-- The column coordinate a grid point reads is the transposed array's at batch `t / 4`, column `896 (t % 4) + j`. -/
theorem k_blk (c : Dev nD) (t : Fin cfg1.N) (d : Fin 3) (j : Fin 896) :
    (iblk1 V c 1 t (ix3 (0 : Fin 1) d j) : EReal)
      = (V c main_v16 : S4x3x3584.Idx → EReal)
          (ix3 (⟨t.val / 4, by have := t_bounds t; omega⟩ : Fin 4) d (⟨896 * (t.val % 4) + j.val, by omega⟩ : Fin 3584)) := by
  obtain ⟨-, -, -, e0, e1, e2, -⟩ := idx_facts t
  show (V c main_v16 : S4x3x3584.Idx → EReal) (((cfg1.win 1).blk t).view.emb (ix3 (0 : Fin 1) d j)) = _
  refine congrArg _ (funext fun a => Fin.ext ?_)
  match a with
  | ⟨0, _⟩ => show win1_1.index t (0 : Fin 3) * 1 + 1 * 0 = t.val / 4; omega
  | ⟨1, _⟩ => show win1_1.index t (1 : Fin 3) * 3 + 1 * d.val = d.val; omega
  | ⟨2, _⟩ => show win1_1.index t (2 : Fin 3) * 896 + 1 * j.val = 896 * (t.val % 4) + j.val; omega

section Value

variable (co : SCo.Idx → EReal) (c : Dev nD)
variable (hco : (V c main_v8 : S4x3584x3.Idx → EReal) = co)
variable (hct : ∀ (n : Fin 4) (d : Fin 3) (j : Fin 3584), (V c main_v16 : S4x3x3584.Idx → EReal) (ix3 n d j) = co (ix3 n j d))

include hco hct in
/-- Row `r`, column `j` of what grid point `t` leaves is the widened bit of atoms `r` and `896 (t % 4) + j` of batch `t / 4`. -/
theorem point_apply (t : Fin cfg1.N) (r : Fin 3584) (j : Fin 896) :
    (outsAt1 V c t (ix3 (0 : Fin 1) r j) : BitVec 32)
      = (edgeAt co (⟨t.val / 4, by have := t_bounds t; omega⟩ : Fin 4) r (⟨896 * (t.val % 4) + j.val, by omega⟩ : Fin 3584)).setWidth 32 := by
  unfold outsAt1
  refine (EdgeBody.out_apply c _ _ _ _ _ _ _ (iblk1 V c 0 t) (iblk1 V c 1 t) r j).trans ?_
  unfold edgeAt blkDist2 dist2
  rw [q_blk V c t r (0 : Fin 3), q_blk V c t r (1 : Fin 3), q_blk V c t r (2 : Fin 3),
    k_blk V c t (0 : Fin 3) j, k_blk V c t (1 : Fin 3) j, k_blk V c t (2 : Fin 3) j, hco, hct, hct, hct]

include hco hct in
/-- What grid point `t` writes back is block `t` of the widened edge mask. -/
theorem flushed_eq (t : Fin cfg1.N) :
    (dat1 V c).flushed 2 t = ((cfg1.win 2).blk t).view.read (Elt Ideal) (edge32 co) := by
  show (cfg1.win 2).cut (grid1.coords t) ((dat1 V c).after 2 t) = _
  rw [after1_2]
  obtain ⟨-, -, -, -, -, -, e0, e1, e2⟩ := idx_facts t
  have key : ∀ y : S1x3584x896.Idx,
      (outsAt1 V c t y : BitVec 32) = edge32 co (((cfg1.win 2).blk t).view.emb y) := by
    intro y
    obtain ⟨a, r, j, rfl⟩ : ∃ (a : Fin 1) (r : Fin 3584) (j : Fin 896), y = ix3 a r j := ⟨y 0, y 1, y 2, eq_ix3 y⟩
    obtain rfl : a = 0 := Subsingleton.elim _ _
    rw [point_apply V co c hco hct t r j]
    unfold edge32 edgeSpec
    have i0 : (((cfg1.win 2).blk t).view.emb (ix3 (0 : Fin 1) r j) : S4x3584x3584.Idx)
        = ix3 (⟨t.val / 4, by have := t_bounds t; omega⟩ : Fin 4) r (⟨896 * (t.val % 4) + j.val, by omega⟩ : Fin 3584) := by
      funext a; apply Fin.ext
      match a with
      | ⟨0, _⟩ => show win1_2.index t (0 : Fin 3) * 1 + 1 * 0 = t.val / 4; omega
      | ⟨1, _⟩ => show win1_2.index t (1 : Fin 3) * 3584 + 1 * r.val = r.val; omega
      | ⟨2, _⟩ => show win1_2.index t (2 : Fin 3) * 896 + 1 * j.val = 896 * (t.val % 4) + j.val; omega
    rw [i0]
  funext y
  exact key y

/-- Every index of the array is in some grid point's block: batch `n`, column `j` is point `4 n + j / 896`. -/
theorem cover (i : S4x3584x3584.Idx) :
    ∃ t : Fin cfg1.N, (cfg1.win 2).flush t = true ∧ i ∈ ((cfg1.win 2).blk t).view.set := by
  have hi0 : (i 0).val < 4 := (i 0).isLt
  have hi1 : (i 1).val < 3584 := (i 1).isLt
  have hi2 : (i 2).val < 3584 := (i 2).isLt
  have ht : 4 * (i 0).val + (i 2).val / 896 < 16 := by omega
  refine ⟨⟨4 * (i 0).val + (i 2).val / 896, ht⟩, flush1_2 _, ?_⟩
  obtain ⟨-, -, -, -, -, -, e0, e1, e2⟩ := idx_facts ⟨4 * (i 0).val + (i 2).val / 896, ht⟩
  show i ∈ ((View.whole main_v17).slice (win1_2.rect ⟨4 * (i 0).val + (i 2).val / 896, ht⟩)).set
  rw [View.set_slice_whole, Rect.mem_set_unit]
  intro a
  match a with
  | ⟨0, _⟩ =>
    show win1_2.index ⟨4 * (i 0).val + (i 2).val / 896, ht⟩ (0 : Fin 3) * 1 ≤ (i 0).val
      ∧ (i 0).val < win1_2.index ⟨4 * (i 0).val + (i 2).val / 896, ht⟩ (0 : Fin 3) * 1 + 1
    simp only [] at e0; omega
  | ⟨1, _⟩ =>
    show win1_2.index ⟨4 * (i 0).val + (i 2).val / 896, ht⟩ (1 : Fin 3) * 3584 ≤ (i 1).val
      ∧ (i 1).val < win1_2.index ⟨4 * (i 0).val + (i 2).val / 896, ht⟩ (1 : Fin 3) * 3584 + 3584
    omega
  | ⟨2, _⟩ =>
    show win1_2.index ⟨4 * (i 0).val + (i 2).val / 896, ht⟩ (2 : Fin 3) * 896 ≤ (i 2).val
      ∧ (i 2).val < win1_2.index ⟨4 * (i 0).val + (i 2).val / 896, ht⟩ (2 : Fin 3) * 896 + 896
    simp only [] at e2; omega

include hco hct in
/-- THE EDGE KERNEL'S ARRAY after the run is the widened edge mask. -/
theorem final : (dat1 V c).arrAt 2 cfg1.N = edge32 co :=
  (dat1 V c).arrAt_eq_of_cover 2 (edge32 co) (fun t _ => flushed_eq V co c hco hct t) cover

end Value

/-- The bit "the widened bit is not zero" is the bit. -/
theorem ne_zero_bit : ∀ b : BitVec 1, IntOp.cmpi .ne (b.setWidth 32) 0#32 = b := by decide

end Cert.AtomEnc.EdgeArray

end
-- ==== Proof.LibGatherRows.lean ====
/-
  A row lookup read at an index.

  What `x[idx]` of a table `x : [N, K]` at an integer array `idx : [R, C]` lowers to is a `stablehlo.gather` of
  the table at the start indices `[R, C, 1]` (one index vector of length one per position) with offset axis 2,
  collapsed axis 0, start index map `[0]`, index vector axis 2 and slices `[1, K]`: result element `(p, q, j)`
  is column `j` of the row whose number is the start index `idx[p, q, 0]` read as a signed integer and clamped
  into `[0, N − 1]`.
-/
import Idealize.ShloMosaic.Lib.ValueIdx

noncomputable section

namespace Cert.PosEnc.GatherRows

open Idealize.ShloMosaic Idealize.ShloMosaic.ValueIdx

variable {α : Type}

/-- Those dimension numbers for a table `[N, K]`, start indices `[R, C, 1]` and result `[R, C, K]`; their
    conditions `wf` are decided on a program's literal shapes. -/
abbrev rowsDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- THE ROW LOOKUP READ AT `(p, q, j)`: the table at column `j` of the row the start index `idx[p, q, 0]` names,
    read signed and clamped into `[0, N − 1]`. On the row axis the operand coordinate is the clamped start alone
    (the axis is collapsed, so it has no offset, and there are no batching axes); on the column axis the start
    is `0` (the start index map does not name it) and the offset is the result's coordinate on its one offset
    axis. -/
theorem gather_rows_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (p : Fin R) (q : Fin C) (j : Fin K) :
    Host.gather (rowsDims N K R C wf) x idx (ix3 p q j)
      = x (ix2 ⟨min (idx (ix3 p q (0 : Fin 1))).toInt.toNat (N - 1), by omega⟩ j) := by
  unfold Host.gather
  congr 1
  funext a
  refine Fin.ext ?_
  match a with
  | ⟨0, _⟩ =>
    show (rowsDims N K R C wf).start (ix3 p q j) idx 0 + (rowsDims N K R C wf).batchCoord (ix3 p q j) 0
        + (rowsDims N K R C wf).offCoord (ix3 p q j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K R C wf).startIndexMap from List.mem_singleton.mpr rfl)]
    have hsi : (rowsDims N K R C wf).siIdx (ix3 p q j) ⟨List.idxOf (0 : Fin 2) (rowsDims N K R C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N K R C wf).start (ix3 p q j) idx 1 + (rowsDims N K R C wf).batchCoord (ix3 p q j) 1
        + (rowsDims N K R C wf).offCoord (ix3 p q j) 1 = j.val
    have hk : (1 : Fin 2) ∈ (rowsDims N K R C wf).sKept := by
      rw [GatherDims.mem_sKept]; exact ⟨(by decide : (1 : Fin 2) ∉ [(0 : Fin 2)]), List.not_mem_nil⟩
    rw [GatherDims.batchCoord_eq_zero _ _ _ List.not_mem_nil]
    unfold GatherDims.start GatherDims.offCoord
    rw [dif_neg (show (1 : Fin 2) ∉ (rowsDims N K R C wf).startIndexMap from (by decide : (1 : Fin 2) ∉ [(0 : Fin 2)])), dif_pos hk]
    simp only [Nat.add_zero, Nat.zero_add]
    rfl

end Cert.PosEnc.GatherRows

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.RefValue.lean ====
/-
  The reference's three results as functions of its arguments.
-/
import proofs.«430467_j57887569215661_3_alg».proof.Proof.Gen.ReferenceIdeal.Read
import proofs.«430467_j57887569215661_3_alg».proof.Proof.Spec
import proofs.«430467_j57887569215661_3_alg».proof.Proof.LibGatherRows
import proofs.«430467_j57887569215661_3_alg».proof.Proof.LibIndexed
import Idealize.ShloMosaic.Lib.ValueIdx
import Idealize.ShloMosaic.Lib.ValueLayout
import Idealize.ShloMosaic.Lib.Pipeline.Value
import Idealize.ShloMosaic.PureOps.Ideal.Laws

noncomputable section

namespace Cert.AtomEnc.RefValue

open Idealize.ShloMosaic Idealize.ShloMosaic.ValueIdx Cert.ReferenceIdeal Cert.ReferenceIdeal.Gen

/-- A start word that is non-negative as a signed integer is not shifted: the lookup's `x < 0 ? x + k : x` is `x`. -/
private theorem select_start (a k : BitVec 32) (h : a.toNat < 2147483648) :
    Scalar.select (IntOp.cmpi .slt a 0#32) (IntOp.addi a k) a = a := by
  have h0 : a.slt 0#32 = false := by
    rw [BitVec.slt, BitVec.toInt_eq_toNat_of_lt (by omega)]
    simp
  show Scalar.select (BitVec.ofBool (a.slt 0#32)) _ a = a
  rw [h0]
  exact select_zero _ _

/-- Such a word read signed is its natural number. -/
private theorem toInt_toNat_small (a : BitVec 32) (h : a.toNat < 2147483648) : a.toInt.toNat = a.toNat := by
  rw [BitVec.toInt_eq_toNat_of_lt (by omega)]
  exact Int.toNat_natCast _

/-- The residue type read at atom `(n, m)`: the broadcast over the 14 atoms of a residue, then the merge of the residue
    and atom axes, reads residue `m / 14`. -/
private theorem idx_aa (n : Fin 4) (m : Fin 3584) :
    Read.idx_main_v0 (Read.idx_main_v1 (Read.idx_main_v11 (ix3 n m (0 : Fin 1)))) = ix2 n (⟨m.val / 14, by omega⟩ : Fin 256) := by
  funext a
  refine Fin.ext ?_
  match a with
  | ⟨0, _⟩ => show (n.val * 3584 + m.val) / 3584 = n.val; omega
  | ⟨1, _⟩ => show (n.val * 3584 + m.val) / 14 % 256 = m.val / 14; omega

/-- Columns `0 … 61`: the residue-type row of the atom's residue. -/
private theorem feat_res (aa : IVec S4x256 32) (res : FVec Ideal S21x62 .f32) (hr : ∀ i, (aa i).toNat < 21)
    (n : Fin 4) (m : Fin 3584) (c : Fin 62) :
    Read.val_main_v12 (F := Ideal) aa res (ix3 n m c)
      = res (ix2 (resRow (aa (ix2 n (⟨m.val / 14, by omega⟩ : Fin 256)))) c) := by
  unfold Read.val_main_v12
  refine (Cert.PosEnc.GatherRows.gather_rows_apply (N := 21) (K := 62) (R := 4) (C := 3584) (by decide)
    gather_S21x62_S4x3584x1_S4x3584x62_2_0_n_n_0_2_162_wf res (Read.val_main_v11 (F := Ideal) aa) n m c).trans ?_
  have hs : Read.val_main_v11 (F := Ideal) aa (ix3 n m (0 : Fin 1)) = aa (ix2 n (⟨m.val / 14, by omega⟩ : Fin 256)) := by
    rw [Read.val_main_v11_apply, Read.val_main_v10_apply, Read.val_main_v7_apply, Read.val_main_v9_apply,
      Read.val_main_v6_apply, Read.val_main_v8_apply, Read.val_main_c_apply, Read.val_main_c_0_apply,
      Read.val_main_v1_apply, Read.val_main_v0_apply, idx_aa]
    exact select_start _ _ (by have := hr (ix2 n (⟨m.val / 14, by omega⟩ : Fin 256)); omega)
  refine congrArg res (congrArg (fun r => ix2 r c) (Fin.ext ?_))
  show min (Read.val_main_v11 (F := Ideal) aa (ix3 n m (0 : Fin 1))).toInt.toNat (21 - 1)
    = min (aa (ix2 n (⟨m.val / 14, _⟩ : Fin 256))).toNat 20
  rw [hs, toInt_toNat_small _ (by have := hr (ix2 n (⟨m.val / 14, by omega⟩ : Fin 256)); omega)]

/-- The atom's position in its residue read at atom `m`: the iota over the 14 positions, broadcast over the 256 residues and
    merged, reads position `m % 14`. -/
private theorem iota_at (m : Fin 3584) :
    Read.val_main_v5 (F := Ideal) (Read.idx_main_v18 (ix2 m (0 : Fin 1))) = BitVec.ofNat 32 (m.val % 14) := by
  rw [Read.val_main_v5_apply, Read.val_main_v4_apply, Read.val_main_v3_apply, Read.val_main_v2_apply]
  refine congrArg (BitVec.ofNat 32) ?_
  show 0 * 14 + m.val % 14 = m.val % 14
  omega

/-- Columns `62 … 124`: the atom-type row of the atom's position in its residue. -/
private theorem feat_atom (atom : FVec Ideal S14x63 .f32) (n : Fin 4) (m : Fin 3584) (c : Fin 63) :
    Read.val_main_v20 (F := Ideal) atom (ix3 n m c) = atom (ix2 (⟨m.val % 14, by omega⟩ : Fin 14) c) := by
  have hi : Read.idx_main_v20 (ix3 n m c) = ix2 m c := by
    funext a; match a with | ⟨0, _⟩ => rfl | ⟨1, _⟩ => rfl
  rw [Read.val_main_v20_apply, hi]
  unfold Read.val_main_v19
  refine (Cert.Rgcn.Lib.gather_rows_apply (N := 14) (K := 63) (R := 3584) (by decide)
    gather_S14x63_S3584x1_S3584x63_1_0_n_n_0_1_163 gather_S14x63_S3584x1_S3584x63_1_0_n_n_0_1_163_wf rfl
    atom (Read.val_main_v18 (F := Ideal)) m c).trans ?_
  have hlt : (BitVec.ofNat 32 (m.val % 14)).toNat = m.val % 14 := by
    rw [BitVec.toNat_ofNat]; omega
  have hs : Read.val_main_v18 (F := Ideal) (ix2 m (0 : Fin 1)) = BitVec.ofNat 32 (m.val % 14) := by
    rw [Read.val_main_v18_apply, Read.val_main_v17_apply, Read.val_main_v14_apply, Read.val_main_v16_apply,
      Read.val_main_v13_apply, Read.val_main_v15_apply, Read.val_main_c_1_apply, Read.val_main_c_2_apply, iota_at]
    exact select_start _ _ (by rw [hlt]; omega)
  refine congrArg atom (congrArg (fun r => ix2 r c) (Fin.ext ?_))
  show min (Read.val_main_v18 (F := Ideal) (ix2 m (0 : Fin 1))).toInt.toNat (14 - 1) = m.val % 14
  rw [hs, toInt_toNat_small _ (by rw [hlt]; omega), hlt]
  omega

/-- The reference's features are the specification's, when every residue type is below `21`. -/
theorem ref_feat (aa : IVec S4x256 32) (pos : FVec Ideal S4x256x14x3 .f32) (res : FVec Ideal S21x62 .f32) (atom : FVec Ideal S14x63 .f32)
    (hr : ∀ i, (aa i).toNat < 21) :
    (concatenate S4x3584x128 2 [⟨S4x3584x62, (Host.gather gather_S21x62_S4x3584x1_S4x3584x62_2_0_n_n_0_2_162 res (broadcastInDim S4x3584x1 ![0, 1] bcast_S4x3584_S4x3584x1_0_1 (select (cmpi .slt (shapeCast _ (broadcastInDim S4x256x14 ![0, 1] bcast_S4x256_S4x256x14_0_1 aa) shapeCasts_S4x256x14_S4x3584) (broadcastInDim S4x3584 ![] bcast_S_S4x3584 (constantI S_ 32 0#32))) (addi (shapeCast _ (broadcastInDim S4x256x14 ![0, 1] bcast_S4x256_S4x256x14_0_1 aa) shapeCasts_S4x256x14_S4x3584) (broadcastInDim S4x3584 ![] bcast_S_S4x3584 (constantI S_ 32 21#32))) (shapeCast _ (broadcastInDim S4x256x14 ![0, 1] bcast_S4x256_S4x256x14_0_1 aa) shapeCasts_S4x256x14_S4x3584))))⟩, ⟨S4x3584x63, (broadcastInDim S4x3584x63 ![1, 2] bcast_S3584x63_S4x3584x63_1_2 (Host.gather gather_S14x63_S3584x1_S3584x63_1_0_n_n_0_1_163 atom (broadcastInDim S3584x1 ![0] bcast_S3584_S3584x1_0 (select (cmpi .slt (shapeCast _ (broadcastInDim S256x14 ![0, 1] bcast_S1x14_S256x14_0_1 (shapeCast _ (iotaInDim S14 32 0) shapeCasts_S14_S1x14)) shapeCasts_S256x14_S3584) (broadcastInDim S3584 ![] bcast_S_S3584 (constantI S_ 32 0#32))) (addi (shapeCast _ (broadcastInDim S256x14 ![0, 1] bcast_S1x14_S256x14_0_1 (shapeCast _ (iotaInDim S14 32 0) shapeCasts_S14_S1x14)) shapeCasts_S256x14_S3584) (broadcastInDim S3584 ![] bcast_S_S3584 (constantI S_ 32 14#32))) (shapeCast _ (broadcastInDim S256x14 ![0, 1] bcast_S1x14_S256x14_0_1 (shapeCast _ (iotaInDim S14 32 0) shapeCasts_S14_S1x14)) shapeCasts_S256x14_S3584)))))⟩, ⟨S4x3584x3, (shapeCast _ pos shapeCasts_S4x256x14x3_S4x3584x3)⟩] concatenates_S4x3584x62_S4x3584x63_S4x3584x3_S4x3584x128_d2 : FVec Ideal S4x3584x128 .f32)
      = featSpec aa (shapeCast S4x3584x3 pos shapeCasts_S4x256x14x3_S4x3584x3) res atom := by
  refine (Read.val_main_v29_eq (F := Ideal) aa pos res atom).trans ?_
  funext y
  obtain ⟨n, m, c, rfl⟩ : ∃ n m c, y = ix3 n m c := ⟨y 0, y 1, y 2, eq_ix3 y⟩
  show Read.val_main_v29 (F := Ideal) aa pos res atom (ix3 n m c)
    = featAt aa (shapeCast S4x3584x3 pos shapeCasts_S4x256x14x3_S4x3584x3) res atom n m c
  unfold Read.val_main_v29 featAt
  by_cases h1 : c.val < 62
  · -- the first piece: columns 0 … 61
    rw [dif_pos h1]
    refine (concatenate_apply_piece _ _ _ (ix3 n m c) 0 (by show 0 < 3; omega) S4x3584x62
      (Read.val_main_v12 (F := Ideal) aa res) rfl rfl 0 rfl (ix3 n m (⟨c.val, h1⟩ : Fin 62)) ?_ ?_).trans ?_
    · intro b hb
      match b with
      | ⟨0, _⟩ => rfl
      | ⟨1, _⟩ => rfl
      | ⟨2, _⟩ => exact absurd rfl hb
    · exact Nat.zero_add _
    · exact feat_res aa res hr n m ⟨c.val, h1⟩
  · rw [dif_neg h1]
    by_cases h2 : c.val < 125
    · -- the second piece: columns 62 … 124
      rw [dif_pos h2]
      refine (concatenate_apply_piece _ _ _ (ix3 n m c) 1 (by show 1 < 3; omega) S4x3584x63
        (Read.val_main_v20 (F := Ideal) atom) rfl rfl 62 rfl (ix3 n m (⟨c.val - 62, by omega⟩ : Fin 63)) ?_ ?_).trans ?_
      · intro b hb
        match b with
        | ⟨0, _⟩ => rfl
        | ⟨1, _⟩ => rfl
        | ⟨2, _⟩ => exact absurd rfl hb
      · show 62 + (c.val - 62) = c.val
        omega
      · exact feat_atom atom n m ⟨c.val - 62, by omega⟩
    · -- the third piece: columns 125 … 127
      rw [dif_neg h2]
      refine (concatenate_apply_piece _ _ _ (ix3 n m c) 2 (by show 2 < 3; omega) S4x3584x3
        (Read.val_main_v21 (F := Ideal) pos) rfl rfl 125 rfl (ix3 n m (⟨c.val - 125, by omega⟩ : Fin 3)) ?_ ?_).trans ?_
      · intro b hb
        match b with
        | ⟨0, _⟩ => rfl
        | ⟨1, _⟩ => rfl
        | ⟨2, _⟩ => exact absurd rfl hb
      · show 125 + (c.val - 125) = c.val
        omega
      · rfl

/-- The two broadcasts of the first operand of the difference read at `(n, i, j, k)`: atom `i`, coordinate `k`. -/
private theorem idx_row (n : Fin 4) (i j : Fin 3584) (k : Fin 3) :
    Read.idx_main_v22 (Read.idx_main_v24 (Read.idx_main_v28 (ix3 n i j) k)) = ix3 n i k := by
  funext a; match a with | ⟨0, _⟩ => rfl | ⟨1, _⟩ => rfl | ⟨2, _⟩ => rfl

/-- The two broadcasts of the second operand of the difference read at `(n, i, j, k)`: atom `j`, coordinate `k`. -/
private theorem idx_col (n : Fin 4) (i j : Fin 3584) (k : Fin 3) :
    Read.idx_main_v23 (Read.idx_main_v25 (Read.idx_main_v28 (ix3 n i j) k)) = ix3 n j k := by
  funext a; match a with | ⟨0, _⟩ => rfl | ⟨1, _⟩ => rfl | ⟨2, _⟩ => rfl

/-- The reference's edge mask is the specification's. -/
theorem ref_edge (pos : FVec Ideal S4x256x14x3 .f32) :
    (cmpf .olt (Host.reduceAdd (mulf (subf (broadcastInDim S4x3584x3584x3 ![0, 1, 2, 3] bcast_S4x3584x1x3_S4x3584x3584x3_0_1_2_3 (broadcastInDim S4x3584x1x3 ![0, 1, 3] bcast_S4x3584x3_S4x3584x1x3_0_1_3 (shapeCast _ pos shapeCasts_S4x256x14x3_S4x3584x3))) (broadcastInDim S4x3584x3584x3 ![0, 1, 2, 3] bcast_S4x1x3584x3_S4x3584x3584x3_0_1_2_3 (broadcastInDim S4x1x3584x3 ![0, 2, 3] bcast_S4x3584x3_S4x1x3584x3_0_2_3 (shapeCast _ pos shapeCasts_S4x256x14x3_S4x3584x3)))) (subf (broadcastInDim S4x3584x3584x3 ![0, 1, 2, 3] bcast_S4x3584x1x3_S4x3584x3584x3_0_1_2_3 (broadcastInDim S4x3584x1x3 ![0, 1, 3] bcast_S4x3584x3_S4x3584x1x3_0_1_3 (shapeCast _ pos shapeCasts_S4x256x14x3_S4x3584x3))) (broadcastInDim S4x3584x3584x3 ![0, 1, 2, 3] bcast_S4x1x3584x3_S4x3584x3584x3_0_1_2_3 (broadcastInDim S4x1x3584x3 ![0, 2, 3] bcast_S4x3584x3_S4x1x3584x3_0_2_3 (shapeCast _ pos shapeCasts_S4x256x14x3_S4x3584x3))))) (constant S_ .f32 0x00000000#32) reducesTo_S4x3584x3584x3_S4x3584x3584_d3 h_S_) (broadcastInDim S4x3584x3584 ![] bcast_S_S4x3584x3584 (constant S_ .f32 0x42C80000#32)) : IVec S4x3584x3584 1)
      = edgeSpec (shapeCast S4x3584x3 pos shapeCasts_S4x256x14x3_S4x3584x3) := by
  refine (Read.val_main_v32_eq (F := Ideal) pos).trans ?_
  funext y
  obtain ⟨n, i, j, rfl⟩ : ∃ n i j, y = ix3 n i j := ⟨y 0, y 1, y 2, eq_ix3 y⟩
  rw [Read.val_main_v32_apply, Read.val_main_v28_apply, Read.val_main_v31_apply, Read.val_main_cst_3_apply,
    Read.val_main_cst_apply, Fin.sum_univ_three]
  simp only [Read.val_main_v27_apply, Read.val_main_v26_apply, Read.val_main_v24_apply, Read.val_main_v25_apply,
    Read.val_main_v22_apply, Read.val_main_v23_apply, idx_row, idx_col]
  -- the sum starts from zero, and its three terms are the three squares in the specification's order
  show Ideal.cmp .olt (Ideal.ofBits .f32 0x00000000#32 + _) _ = _
  rw [Ideal.ofBits_zero_f32, zero_add]
  rfl

end Cert.AtomEnc.RefValue

end
-- ==== Proof.PreRange.lean ====
/-
  The precondition bounds the residue types: every entry of `aa` lies in `[0, 21)` as a signed integer, so
  as a natural number it is below `21`.
-/
import proofs.«430467_j57887569215661_3_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.AtomEnc.PreRange

open Idealize.ShloMosaic Cert.Pre_finite_inputs

/-- A 32-bit word that is at least `0` and below `21` as a signed integer is below `21` as a natural number. -/
theorem toNat_lt_of_signed (a : BitVec 32) (h0 : IntOp.cmpi .sge a 0#32 = 1#1) (h1 : IntOp.cmpi .slt a 21#32 = 1#1) :
    a.toNat < 21 := by
  have e0 : (0#32).sle a = true := by
    have : BitVec.ofBool ((0#32).sle a) = 1#1 := h0
    cases hb : (0#32).sle a <;> simp_all
  have e1 : a.slt 21#32 = true := by
    have : BitVec.ofBool (a.slt 21#32) = 1#1 := h1
    cases hb : a.slt 21#32 <;> simp_all
  rw [BitVec.sle_eq_decide, decide_eq_true_eq] at e0
  rw [BitVec.slt_eq_decide, decide_eq_true_eq] at e1
  have hc := BitVec.toInt_eq_toNat_cond a
  have h21 : (21#32 : BitVec 32).toInt = 21 := by decide
  have h00 : (0#32 : BitVec 32).toInt = 0 := by decide
  rw [h21] at e1; rw [h00] at e0
  split at hc <;> omega

/-- The last conjunct of the precondition, read at an entry of `aa`. -/
theorem aa_range [Cert.Pre_finite_inputs.Facts] (aa : IVec S4x256 32) (pos : FVec Ideal S4x256x14x3 .f32)
    (msk : IVec S4x256x14 1) (res : FVec Ideal S21x62 .f32) (atom : FVec Ideal S14x63 .f32)
    (h : Cert.Pre_finite_inputs.fn (F := Ideal) aa pos msk res atom = fun _ => 1#1) (i : S4x256.Idx) :
    (aa i).toNat < 21 := by
  have h0 := congrFun h ValueIdx.ix0
  dsimp only [fn, fn_part1] at h0
  haveI : Subsingleton S_.Idx := ⟨fun a b => funext fun d => d.elim0⟩
  have hall := (IntOp.andi_eq_one.mp h0).2
  have hi := Host.reduce_andi_all _ _ _ _ _ hall i
  have hi2 := IntOp.andi_eq_one.mp hi
  exact toNat_lt_of_signed (aa i) hi2.1 hi2.2

end Cert.AtomEnc.PreRange

end
-- ==== Proof.lean ====
/-
  The atom encoder: a Pallas program of two kernels against its jnp reference, over the extended reals.

  The program returns three arrays from residue types `aa : [4, 256]`, atom positions `[4, 256, 14, 3]`, an atom
  mask `[4, 256, 14]` and two embedding tables. With the residue and atom axes merged (`3584 = 256 · 14` atoms a
  batch):
  * the features `[4, 3584, 128]` — the residue-type row, the atom-type row and the coordinates side by side. The
    reference looks the rows up; the kernel multiplies a one-hot matrix with a combined table `[35, 125]` whose two
    diagonal blocks are the tables and whose other blocks are zero. On the extended reals `0 · x = 0` and `1 · x = x`
    for every `x`, so the product's row is the sum of a table row and a zero: no finiteness is used. The two agree
    where every residue type is one of the `21` rows; outside that range the reference's lookup clamps while the
    one-hot row is empty, which is why the precondition bounds `aa`;
  * the atom mask `[4, 3584]`, the same reshape in both programs;
  * the edge mask `[4, 3584, 3584]`: the squared distance of two atoms of a batch is below `100`. The reference sums
    the three squared differences from `0`; the kernel adds them two and one, tile by tile; addition on the extended
    reals is associative and `0` is neutral, so the sums are one number and the comparisons one bit. The kernel
    stores the bit as a 32-bit word and the program turns it back into a bit.
-/
import proofs.«430467_j57887569215661_3_alg».proof.Defs
import proofs.«430467_j57887569215661_3_alg».proof.Proof.Gen.Kernel
import proofs.«430467_j57887569215661_3_alg».proof.Proof.Gen.Kernel.Skeleton
import proofs.«430467_j57887569215661_3_alg».proof.Proof.Gen.Kernel.Launch
import proofs.«430467_j57887569215661_3_alg».proof.Proof.Gen.Kernel.Points
import proofs.«430467_j57887569215661_3_alg».proof.Proof.Gen.Kernel.Frame
import proofs.«430467_j57887569215661_3_alg».proof.Proof.Gen.KernelIdeal
import proofs.«430467_j57887569215661_3_alg».proof.Proof.Gen.KernelIdeal.Skeleton
import proofs.«430467_j57887569215661_3_alg».proof.Proof.Gen.KernelIdeal.Launch
import proofs.«430467_j57887569215661_3_alg».proof.Proof.Gen.KernelIdeal.Points
import proofs.«430467_j57887569215661_3_alg».proof.Proof.Gen.KernelIdeal.Frame
import proofs.«430467_j57887569215661_3_alg».proof.Proof.Gen.ReferenceIdeal
import proofs.«430467_j57887569215661_3_alg».proof.Proof.Gen.ReferenceIdeal.Run
import proofs.«430467_j57887569215661_3_alg».proof.Proof.Gen.ReferenceIdeal.Read
import proofs.«430467_j57887569215661_3_alg».proof.Proof.Gen.Pre_finite_inputs
import proofs.«430467_j57887569215661_3_alg».proof.Proof.Spec
import proofs.«430467_j57887569215661_3_alg».proof.Proof.RunResults
import proofs.«430467_j57887569215661_3_alg».proof.Proof.Stretches
import proofs.«430467_j57887569215661_3_alg».proof.Proof.HostReads
import proofs.«430467_j57887569215661_3_alg».proof.Proof.FeatArray
import proofs.«430467_j57887569215661_3_alg».proof.Proof.EdgeArray
import proofs.«430467_j57887569215661_3_alg».proof.Proof.RefValue
import proofs.«430467_j57887569215661_3_alg».proof.Proof.PreRange
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.AtomEnc

/-- The word-level kernel runs and leaves its arguments unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its generated run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

section Kernel

open Cert.KernelIdeal Cert.KernelIdeal.Gen

variable (m : (ℓ : Loc nD τ sig) → Buf (Elt Ideal) ℓ) (ρ : Dev nD → PrngReg) (c : Dev nD)

/-- The coordinates: the positions with residue and atom axes merged. -/
abbrev coOf : SCo.Idx → EReal :=
  shapeCast S4x3584x3 (m ((c : Thread nD τ).loc main_arg1)) shapeCasts_S4x256x14x3_S4x3584x3

/-- The features the kernel's program returns are the specification's, when every residue type is below `21`. -/
theorem kernel_feat (hr : ∀ i, ((m ((c : Thread nD τ).loc main_arg0) : S4x256.Idx → BitVec 32) i).toNat < 21) :
    W5 m ρ c (Proc.devRef .tc main_v15)
      = featSpec (m ((c : Thread nD τ).loc main_arg0)) (coOf m c) (m ((c : Thread nD τ).loc main_arg3)) (m ((c : Thread nD τ).loc main_arg4)) := by
  rw [Stretches.W5_v15]
  refine FeatArray.final (V1 m ρ) _ _ _ _ c ?_ ?_ (Stretches.V1_v8 m ρ c) ?_ hr
  · intro n r; rw [Stretches.V1_v6]; exact HostReads.rid_apply _ _ _ _ n r
  · intro r; rw [Stretches.V1_v7]; exact HostReads.aid_apply _ _ _ _ r
  · intro k cc; rw [Stretches.V1_v14]; exact HostReads.table_apply _ _ _ _ _ _ _ k cc

/-- The edge mask the kernel's program returns is the specification's. -/
theorem kernel_edge : (W5 m ρ c (Proc.devRef .tc main_v20) : S4x3584x3584.Idx → BitVec 1) = edgeSpec (coOf m c) := by
  rw [Stretches.W5_v20]
  have hco : (V3 m ρ c main_v8 : S4x3584x3.Idx → EReal) = coOf m c := (Stretches.V3_v8 m ρ c).trans (Stretches.V1_v8 m ρ c)
  have hct : ∀ (n : Fin 4) (d : Fin 3) (j : Fin 3584), (V3 m ρ c main_v16 : S4x3x3584.Idx → EReal) (ix3 n d j) = coOf m c (ix3 n j d) := by
    intro n d j
    rw [Stretches.V3_v16, Stretches.V1_v8]
    exact HostReads.transpose_apply _ _ n d j
  rw [EdgeArray.final (V3 m ρ) (coOf m c) c hco hct]
  funext y
  exact EdgeArray.ne_zero_bit _

end Kernel

/-- The two idealized programs, run from memories agreeing on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) i, ((m ((c.tc : Thread Cert.KernelIdeal.nD Cert.KernelIdeal.τ).loc Cert.KernelIdeal.main_arg0) : Cert.KernelIdeal.S4x256.Idx → BitVec 32) i).toNat < 21 :=
    fun c i => @PreRange.aa_range Cert.Pre_finite_inputs.Gen.facts _ _ _ _ _ (hpre c) i
  refine ⟨fun c => featSpec (m ((c.tc : Thread Cert.KernelIdeal.nD Cert.KernelIdeal.τ).loc Cert.KernelIdeal.main_arg0)) (coOf m c)
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
      fun c => shapeCast Cert.KernelIdeal.S4x3584 (m ((c.tc : Thread Cert.KernelIdeal.nD Cert.KernelIdeal.τ).loc Cert.KernelIdeal.main_arg2)) Cert.KernelIdeal.Gen.shapeCasts_S4x256x14_S4x3584,
      fun c => edgeSpec (coOf m c), ?_, ?_⟩
  · refine (θ_run Cert.KernelIdeal.defs _ _).mono (fun r h c => ?_) (Cert.KernelIdeal.RunResults.run_results m ρ)
    obtain ⟨h15, h9, h20, ha⟩ := h c
    exact ⟨h15.trans (kernel_feat m ρ c (hr c)), h9.trans (Stretches.W5_v9 m ρ c), h20.trans (kernel_edge m ρ c), ha⟩
  · refine (θ_run Cert.ReferenceIdeal.defs _ _).mono (fun r h c => ?_) (Cert.ReferenceIdeal.Value.run (F := Ideal) m' ρ')
    obtain ⟨h29, h30, h32, hb⟩ := h c
    obtain ⟨g0, g1, g2, g3, g4⟩ := hagree c
    refine ⟨h29.trans ?_, h30.trans ?_, h32.trans ?_, hb⟩
    · rw [g0, g1, g3, g4]
      exact RefValue.ref_feat _ _ _ _ (hr c)
    · rw [g2]
    · rw [g1]
      exact RefValue.ref_edge _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
